-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S8x21x56x56 : Shape := ⟨4, ![8, 21, 56, 56]⟩
abbrev S3136x3136 : Shape := ⟨2, ![3136, 3136]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S8x21x56x56 : S_.BroadcastsInDim S8x21x56x56 (![] : Fin 0 → Fin S8x21x56x56.rank)
  reducesTo_S8x21x56x56_S_d0_1_2_3 : S8x21x56x56.ReducesTo [0, 1, 2, 3] S_
  bcast_S_S3136x3136 : S_.BroadcastsInDim S3136x3136 (![] : Fin 0 → Fin S3136x3136.rank)
  reducesTo_S3136x3136_S_d0_1 : S3136x3136.ReducesTo [0, 1] S_

variable [Facts]

def fn_part1 {F : FTy → Type} [FloatOps F] (main_v13 : IVec S_ 1) (main_v16 : IVec S3136x3136 1) : IVec S_ 1 :=
  let main_c_5 : IVec S_ 1 := constantI S_ 1 1#1
  let main_v17 : IVec S_ 1 := (fun x v => Host.reduce IntOp.andi x v reducesTo_S3136x3136_S_d0_1 h_S_) main_v16 main_c_5
  let main_v18 : IVec S_ 1 := andi main_v13 main_v17
  main_v18

def fn {F : FTy → Type} [FloatOps F] (main_arg0 : FVec F S8x256x56x56 .f32) (main_arg1 : FVec F S8x256x56x56 .f32) (main_arg2 : FVec F S8x21x56x56 .f32) (main_arg3 : FVec F S3136x3136 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S8x256x56x56 .f32 := Host.absf main_arg1
  let main_cst_0 : FVec F S_ .f32 := constant S_ .f32 0x7F800000#32
  let main_v5 : FVec F S8x256x56x56 .f32 := broadcastInDim S8x256x56x56 ![] bcast_S_S8x256x56x56 main_cst_0
  let main_v6 : IVec S8x256x56x56 1 := cmpf .olt main_v4 main_v5
  let main_c_1 : IVec S_ 1 := constantI S_ 1 1#1
  let main_v7 : IVec S_ 1 := (fun x v => Host.reduce IntOp.andi x v reducesTo_S8x256x56x56_S_d0_1_2_3 h_S_) main_v6 main_c_1
  let main_v8 : IVec S_ 1 := andi main_v3 main_v7
  let main_v9 : FVec F S8x21x56x56 .f32 := Host.absf main_arg2
  let main_cst_2 : FVec F S_ .f32 := constant S_ .f32 0x7F800000#32
  let main_v10 : FVec F S8x21x56x56 .f32 := broadcastInDim S8x21x56x56 ![] bcast_S_S8x21x56x56 main_cst_2
  let main_v11 : IVec S8x21x56x56 1 := cmpf .olt main_v9 main_v10
  let main_c_3 : IVec S_ 1 := constantI S_ 1 1#1
  let main_v12 : IVec S_ 1 := (fun x v => Host.reduce IntOp.andi x v reducesTo_S8x21x56x56_S_d0_1_2_3 h_S_) main_v11 main_c_3
  let main_v13 : IVec S_ 1 := andi main_v8 main_v12
  let main_v14 : FVec F S3136x3136 .f32 := Host.absf main_arg3
  let main_cst_4 : FVec F S_ .f32 := constant S_ .f32 0x7F800000#32
  let main_v15 : FVec F S3136x3136 .f32 := broadcastInDim S3136x3136 ![] bcast_S_S3136x3136 main_cst_4
  let main_v16 : IVec S3136x3136 1 := cmpf .olt main_v14 main_v15
  fn_part1 (F := F) main_v13 main_v16
-- ==== Kernel.lean ====
abbrev S8x256x56x56 : Shape := ⟨4, ![8, 256, 56, 56]⟩
abbrev S8x21x56x56 : Shape := ⟨4, ![8, 21, 56, 56]⟩
abbrev S3136x3136 : Shape := ⟨2, ![3136, 3136]⟩
abbrev S8x256x3136 : Shape := ⟨3, ![8, 256, 3136]⟩
abbrev S_ : Shape := ⟨0, ![]⟩
abbrev S8x256 : Shape := ⟨2, ![8, 256]⟩
abbrev S8x256x1 : Shape := ⟨3, ![8, 256, 1]⟩
abbrev S8x3136x256 : Shape := ⟨3, ![8, 3136, 256]⟩
abbrev S8x3136 : Shape := ⟨2, ![8, 3136]⟩
abbrev S8x1x3136 : Shape := ⟨3, ![8, 1, 3136]⟩
abbrev S8x21x3136 : Shape := ⟨3, ![8, 21, 3136]⟩
abbrev S8x3136x3136 : Shape := ⟨3, ![8, 3136, 3136]⟩
abbrev S1x3136x256 : Shape := ⟨3, ![1, 3136, 256]⟩
abbrev S1x256x256 : Shape := ⟨3, ![1, 256, 256]⟩
abbrev S1x21x3136 : Shape := ⟨3, ![1, 21, 3136]⟩
abbrev S3136x256 : Shape := ⟨2, ![3136, 256]⟩
abbrev S1x21x256 : Shape := ⟨3, ![1, 21, 256]⟩
abbrev S256x256 : Shape := ⟨2, ![256, 256]⟩
abbrev S256 : Shape := ⟨1, ![256]⟩
abbrev S1x256 : Shape := ⟨2, ![1, 256]⟩
abbrev S21x3136 : Shape := ⟨2, ![21, 3136]⟩
abbrev S21x256 : Shape := ⟨2, ![21, 256]⟩

abbrev nBuf : Space → Nat
  | .hbm => 34
  | .vmem => 12
  | .smem => 0
  | _ => 0

abbrev bufTy : (tb : Table) → Fin (tcTables nBuf tb) → BufTy
  | .hbm, ⟨0, _⟩ => ⟨S8x256x56x56, .f32⟩
  | .hbm, ⟨1, _⟩ => ⟨S8x256x56x56, .f32⟩
  | .hbm, ⟨2, _⟩ => ⟨S8x21x56x56, .f32⟩
  | .hbm, ⟨3, _⟩ => ⟨S3136x3136, .f32⟩
  | .hbm, ⟨4, _⟩ => ⟨S8x256x3136, .f32⟩
  | .hbm, ⟨5, _⟩ => ⟨S8x256x3136, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x3136, .f32⟩
  | .hbm, ⟨14, _⟩ => ⟨S8x256x3136, .f32⟩
  | .hbm, ⟨15, _⟩ => ⟨S8x256x3136, .bf16⟩
  | .hbm, ⟨16, _⟩ => ⟨S8x3136x256, .bf16⟩
  | .hbm, ⟨17, _⟩ => ⟨S8x256x3136, .f32⟩
  | .hbm, ⟨18, _⟩ => ⟨S8x256x3136, .f32⟩
  | .hbm, ⟨19, _⟩ => ⟨S_, .f32⟩
  | .hbm, ⟨20, _⟩ => ⟨S8x3136, .f32⟩
  | .hbm, ⟨21, _⟩ => ⟨S8x1x3136, .f32⟩
  | .hbm, ⟨22, _⟩ => ⟨S8x1x3136, .f32⟩
  | .hbm, ⟨23, _⟩ => ⟨S_, .f32⟩
  | .hbm, ⟨24, _⟩ => ⟨S8x1x3136, .f32⟩
  | .hbm, ⟨25, _⟩ => ⟨S8x1x3136, .f32⟩
  | .hbm, ⟨26, _⟩ => ⟨S8x256x3136, .f32⟩
  | .hbm, ⟨27, _⟩ => ⟨S8x256x3136, .f32⟩
  | .hbm, ⟨28, _⟩ => ⟨S8x256x3136, .bf16⟩
  | .hbm, ⟨29, _⟩ => ⟨S8x21x3136, .f32⟩
  | .hbm, ⟨30, _⟩ => ⟨S8x21x3136, .bf16⟩
  | .hbm, ⟨31, _⟩ => ⟨S8x3136x3136, .f32⟩
  | .hbm, ⟨32, _⟩ => ⟨S8x21x3136, .f32⟩
  | .hbm, ⟨33, _⟩ => ⟨S8x21x56x56, .f32⟩
  | .local _ .vmem, ⟨0, _⟩ => ⟨S1x3136x256, .bf16⟩
  | .local _ .vmem, ⟨1, _⟩ => ⟨S1x3136x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x21x3136, .bf16⟩
  | .local _ .vmem, ⟨5, _⟩ => ⟨S1x21x3136, .bf16⟩
  | .local _ .vmem, ⟨6, _⟩ => ⟨S3136x256, .f32⟩
  | .local _ .vmem, ⟨7, _⟩ => ⟨S3136x256, .f32⟩
  | .local _ .vmem, ⟨8, _⟩ => ⟨S1x3136x256, .f32⟩
  | .local _ .vmem, ⟨9, _⟩ => ⟨S1x3136x256, .f32⟩
  | .local _ .vmem, ⟨10, _⟩ => ⟨S1x21x256, .f32⟩
  | .local _ .vmem, ⟨11, _⟩ => ⟨S1x21x256, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3136x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x21x3136 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3136x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3136x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x21x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x256x56x56_S8x256x3136 : S8x256x56x56.ShapeCasts S8x256x3136
  reducesTo_S8x256x3136_S8x256_d2 : S8x256x3136.ReducesTo [2] S8x256
  h_S_ : 0 < S_.numel
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x3136_0_1_2 : S8x256x1.BroadcastsInDim S8x256x3136 (![0, 1, 2] : Fin 3 → Fin S8x256x3136.rank)
  bitsLt_bf16_f32 : FTy.bits .bf16 < FTy.bits .f32
  transposes_S8x256x3136_S8x3136x256_0_2_1 : S8x256x3136.Transposes [0, 2, 1] S8x3136x256
  reducesTo_S8x256x3136_S8x3136_d1 : S8x256x3136.ReducesTo [1] S8x3136
  bcast_S8x3136_S8x1x3136_0_2 : S8x3136.BroadcastsInDim S8x1x3136 (![0, 2] : Fin 2 → Fin S8x1x3136.rank)
  bcast_S_S8x1x3136 : S_.BroadcastsInDim S8x1x3136 (![] : Fin 0 → Fin S8x1x3136.rank)
  bcast_S8x1x3136_S8x256x3136_0_1_2 : S8x1x3136.BroadcastsInDim S8x256x3136 (![0, 1, 2] : Fin 3 → Fin S8x256x3136.rank)
  shapeCasts_S8x21x56x56_S8x21x3136 : S8x21x56x56.ShapeCasts S8x21x3136
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S3136x256 : S1x3136x256.ShapeCasts S3136x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S3136x256_S3136x256_0_0 : ∀ a, (![0, 0] : Fin 2 → Nat) a + S3136x256.size a ≤ S3136x256.size a
  h_S3136x256 : 0 < S3136x256.numel
  reduces_S3136x256_S256 : S3136x256.Reduces [0] S256
  shapeCasts_S256_S1x256 : S256.ShapeCasts S1x256
  broadcasts_S1x256_S3136x256 : S1x256.Broadcasts S3136x256
  shapeCasts_S3136x256_S1x3136x256 : S3136x256.ShapeCasts S1x3136x256
  inb_S1x21x3136_S1x21x3136_0_0_0 : ∀ a, (![0, 0, 0] : Fin 3 → Nat) a + S1x21x3136.size a ≤ S1x21x3136.size a
  h_S1x21x3136 : 0 < S1x21x3136.numel
  shapeCasts_S1x21x3136_S21x3136 : S1x21x3136.ShapeCasts S21x3136
  inb_S1x21x256_S1x21x256_0_0_0 : ∀ a, (![0, 0, 0] : Fin 3 → Nat) a + S1x21x256.size a ≤ S1x21x256.size a
  h_S1x21x256 : 0 < S1x21x256.numel
  shapeCasts_S1x21x256_S21x256 : S1x21x256.ShapeCasts S21x256
  shapeCasts_S21x256_S1x21x256 : S21x256.ShapeCasts S1x21x256
  shapeCasts_S8x21x3136_S8x21x56x56 : S8x21x3136.ShapeCasts S8x21x56x56
  dot_S3136x256_S256x256_S3136x256_1_0_0_1_n_n_wf : DotDims.WF S3136x256 S256x256 S3136x256 [1] [0] [0] [1] [] []
  dot_S21x3136_S3136x256_S21x256_1_0_0_1_n_n_wf : DotDims.WF S21x3136 S3136x256 S21x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3136x256.size a ≤ S8x3136x256.size a
  hwx0_0 : ∀ i : grid0.Coords, EltTy.bits .bf16 = 32 ∨ (Rect.block (s := S8x3136x256) S1x3136x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x256x256.size a < S8x256x3136.size a
  hwx0_1 : ∀ i : grid0.Coords, EltTy.bits .bf16 = 32 ∨ (Rect.unit (s := S8x256x3136) (fun a => cc0_transform_1 i a * S1x256x256.size a) (fun a => (Pipeline.Clip.of (cc0_transform_1 i a) (S1x256x256.size a) (S8x256x3136.size a)).extent (S1x256x256.size a)) fun a => Pipeline.Clip.inb (Pipeline.Clip.ok_of (hstart0_1 i a))).WholeWords (EltTy.packing .bf16)
  hwxs0_1 : ∀ i : grid0.Coords, EltTy.bits .bf16 = 32 ∨ (Rect.unit (s := S1x256x256) (fun _ => 0) (fun a => (Pipeline.Clip.of (cc0_transform_1 i a) (S1x256x256.size a) (S8x256x3136.size a)).extent (S1x256x256.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x21x3136.size a ≤ S8x21x3136.size a
  hwx0_2 : ∀ i : grid0.Coords, EltTy.bits .bf16 = 32 ∨ (Rect.block (s := S8x21x3136) S1x21x3136.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S3136x256.size a < S3136x3136.size a
  hwx0_3 : ∀ i : grid0.Coords, EltTy.bits .f32 = 32 ∨ (Rect.unit (s := S3136x3136) (fun a => cc0_transform_3 i a * S3136x256.size a) (fun a => (Pipeline.Clip.of (cc0_transform_3 i a) (S3136x256.size a) (S3136x3136.size a)).extent (S3136x256.size a)) fun a => Pipeline.Clip.inb (Pipeline.Clip.ok_of (hstart0_3 i a))).WholeWords (EltTy.packing .f32)
  hwxs0_3 : ∀ i : grid0.Coords, EltTy.bits .f32 = 32 ∨ (Rect.unit (s := S3136x256) (fun _ => 0) (fun a => (Pipeline.Clip.of (cc0_transform_3 i a) (S3136x256.size a) (S3136x3136.size a)).extent (S3136x256.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x3136x256.size a < S8x3136x3136.size a
  hwx0_4 : ∀ i : grid0.Coords, EltTy.bits .f32 = 32 ∨ (Rect.unit (s := S8x3136x3136) (fun a => cc0_transform_4 i a * S1x3136x256.size a) (fun a => (Pipeline.Clip.of (cc0_transform_4 i a) (S1x3136x256.size a) (S8x3136x3136.size a)).extent (S1x3136x256.size a)) fun a => Pipeline.Clip.inb (Pipeline.Clip.ok_of (hstart0_4 i a))).WholeWords (EltTy.packing .f32)
  hwxs0_4 : ∀ i : grid0.Coords, EltTy.bits .f32 = 32 ∨ (Rect.unit (s := S1x3136x256) (fun _ => 0) (fun a => (Pipeline.Clip.of (cc0_transform_4 i a) (S1x3136x256.size a) (S8x3136x3136.size a)).extent (S1x3136x256.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x21x256.size a < S8x21x3136.size a
  hwx0_5 : ∀ i : grid0.Coords, EltTy.bits .f32 = 32 ∨ (Rect.unit (s := S8x21x3136) (fun a => cc0_transform_5 i a * S1x21x256.size a) (fun a => (Pipeline.Clip.of (cc0_transform_5 i a) (S1x21x256.size a) (S8x21x3136.size a)).extent (S1x21x256.size a)) fun a => Pipeline.Clip.inb (Pipeline.Clip.ok_of (hstart0_5 i a))).WholeWords (EltTy.packing .f32)
  hwxs0_5 : ∀ i : grid0.Coords, EltTy.bits .f32 = 32 ∨ (Rect.unit (s := S1x21x256) (fun _ => 0) (fun a => (Pipeline.Clip.of (cc0_transform_5 i a) (S1x21x256.size a) (S8x21x3136.size a)).extent (S1x21x256.size a)) fun a => (Nat.zero_add _).trans_le (Pipeline.Clip.extent_le (Pipeline.Clip.ok_of (hstart0_5 i a)))).WholeWords (EltTy.packing .f32)

variable [Facts₀]

def dot_S3136x256_S256x256_S3136x256_1_0_0_1_n_n : DotDims S3136x256 S256x256 S3136x256 where
  lhsContracting := [1]
  rhsContracting := [0]
  lhsNonContracting := [0]
  rhsNonContracting := [1]
  lhsBatch := []
  rhsBatch := []
  wf := dot_S3136x256_S256x256_S3136x256_1_0_0_1_n_n_wf
def dot_S21x3136_S3136x256_S21x256_1_0_0_1_n_n : DotDims S21x3136 S3136x256 S21x256 where
  lhsContracting := [1]
  rhsContracting := [0]
  lhsNonContracting := [0]
  rhsNonContracting := [1]
  lhsBatch := []
  rhsBatch := []
  wf := dot_S21x3136_S3136x256_S21x256_1_0_0_1_n_n_wf

abbrev win0_0 : Pipeline.Window sig grid0 :=
  Pipeline.Window.ofSpec (Memref.whole main_v10) S1x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v20) S1x256x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v22) S1x21x3136.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_arg3) S3136x256.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v23_0) S1x3136x256.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v23_1) S1x21x256.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x56x56 : Shape := ⟨4, ![8, 256, 56, 56]⟩
abbrev S8x21x56x56 : Shape := ⟨4, ![8, 21, 56, 56]⟩
abbrev S3136x3136 : Shape := ⟨2, ![3136, 3136]⟩
abbrev S8x256x3136 : Shape := ⟨3, ![8, 256, 3136]⟩
abbrev S8x3136x256 : Shape := ⟨3, ![8, 3136, 256]⟩
abbrev S_ : Shape := ⟨0, ![]⟩
abbrev S8x256 : Shape := ⟨2, ![8, 256]⟩
abbrev S8x1x256 : Shape := ⟨3, ![8, 1, 256]⟩
abbrev S8x3136 : Shape := ⟨2, ![8, 3136]⟩
abbrev S8x1x3136 : Shape := ⟨3, ![8, 1, 3136]⟩
abbrev S8x3136x3136 : Shape := ⟨3, ![8, 3136, 3136]⟩
abbrev S1x3136x3136 : Shape := ⟨3, ![1, 3136, 3136]⟩
abbrev S8x21x3136 : Shape := ⟨3, ![8, 21, 3136]⟩

abbrev nBuf : Space → Nat
  | .hbm => 51
  | .vmem => 0
  | .smem => 0
  | _ => 0

abbrev bufTy : (tb : Table) → Fin (tcTables nBuf tb) → BufTy
  | .hbm, ⟨0, _⟩ => ⟨S8x256x56x56, .f32⟩
  | .hbm, ⟨1, _⟩ => ⟨S8x256x56x56, .f32⟩
  | .hbm, ⟨2, _⟩ => ⟨S8x21x56x56, .f32⟩
  | .hbm, ⟨3, _⟩ => ⟨S3136x3136, .f32⟩
  | .hbm, ⟨4, _⟩ => ⟨S8x256x3136, .f32⟩
  | .hbm, ⟨5, _⟩ => ⟨S8x3136x256, .f32⟩
  | .hbm, ⟨6, _⟩ => ⟨S8x3136x256, .f32⟩
  | .hbm, ⟨7, _⟩ => ⟨S_, .f32⟩
  | .hbm, ⟨8, _⟩ => ⟨S8x256, .f32⟩
  | .hbm, ⟨9, _⟩ => ⟨S8x1x256, .f32⟩
  | .hbm, ⟨10, _⟩ => ⟨S8x1x256, .f32⟩
  | .hbm, ⟨11, _⟩ => ⟨S_, .f32⟩
  | .hbm, ⟨12, _⟩ => ⟨S8x1x256, .f32⟩
  | .hbm, ⟨13, _⟩ => ⟨S8x1x256, .f32⟩
  | .hbm, ⟨14, _⟩ => ⟨S8x3136x256, .f32⟩
  | .hbm, ⟨15, _⟩ => ⟨S8x3136x256, .f32⟩
  | .hbm, ⟨16, _⟩ => ⟨S8x256x3136, .f32⟩
  | .hbm, ⟨17, _⟩ => ⟨S8x256x3136, .f32⟩
  | .hbm, ⟨18, _⟩ => ⟨S_, .f32⟩
  | .hbm, ⟨19, _⟩ => ⟨S8x3136, .f32⟩
  | .hbm, ⟨20, _⟩ => ⟨S8x1x3136, .f32⟩
  | .hbm, ⟨21, _⟩ => ⟨S8x1x3136, .f32⟩
  | .hbm, ⟨22, _⟩ => ⟨S_, .f32⟩
  | .hbm, ⟨23, _⟩ => ⟨S8x1x3136, .f32⟩
  | .hbm, ⟨24, _⟩ => ⟨S8x1x3136, .f32⟩
  | .hbm, ⟨25, _⟩ => ⟨S8x256x3136, .f32⟩
  | .hbm, ⟨26, _⟩ => ⟨S8x256x3136, .f32⟩
  | .hbm, ⟨27, _⟩ => ⟨S8x3136x3136, .f32⟩
  | .hbm, ⟨28, _⟩ => ⟨S_, .f32⟩
  | .hbm, ⟨29, _⟩ => ⟨S8x3136x3136, .f32⟩
  | .hbm, ⟨30, _⟩ => ⟨S8x3136x3136, .f32⟩
  | .hbm, ⟨31, _⟩ => ⟨S1x3136x3136, .f32⟩
  | .hbm, ⟨32, _⟩ => ⟨S8x3136x3136, .f32⟩
  | .hbm, ⟨33, _⟩ => ⟨S8x3136x3136, .f32⟩
  | .hbm, ⟨34, _⟩ => ⟨S_, .f32⟩
  | .hbm, ⟨35, _⟩ => ⟨S8x3136, .f32⟩
  | .hbm, ⟨36, _⟩ => ⟨S_, .f32⟩
  | .hbm, ⟨37, _⟩ => ⟨S8x3136, .f32⟩
  | .hbm, ⟨38, _⟩ => ⟨S8x3136, .f32⟩
  | .hbm, ⟨39, _⟩ => ⟨S8x1x3136, .f32⟩
  | .hbm, ⟨40, _⟩ => ⟨S8x3136x3136, .f32⟩
  | .hbm, ⟨41, _⟩ => ⟨S8x3136x3136, .f32⟩
  | .hbm, ⟨42, _⟩ => ⟨S8x3136x3136, .f32⟩
  | .hbm, ⟨43, _⟩ => ⟨S_, .f32⟩
  | .hbm, ⟨44, _⟩ => ⟨S8x3136, .f32⟩
  | .hbm, ⟨45, _⟩ => ⟨S8x1x3136, .f32⟩
  | .hbm, ⟨46, _⟩ => ⟨S8x3136x3136, .f32⟩
  | .hbm, ⟨47, _⟩ => ⟨S8x3136x3136, .f32⟩
  | .hbm, ⟨48, _⟩ => ⟨S8x21x3136, .f32⟩
  | .hbm, ⟨49, _⟩ => ⟨S8x21x3136, .f32⟩
  | .hbm, ⟨50, _⟩ => ⟨S8x21x56x56, .f32⟩
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  shapeCasts_S8x256x56x56_S8x256x3136 : S8x256x56x56.ShapeCasts S8x256x3136
  transposes_S8x256x3136_S8x3136x256_0_2_1 : S8x256x3136.Transposes [0, 2, 1] S8x3136x256
  reducesTo_S8x3136x256_S8x256_d1 : S8x3136x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x3136x256_0_1_2 : S8x1x256.BroadcastsInDim S8x3136x256 (![0, 1, 2] : Fin 3 → Fin S8x3136x256.rank)
  reducesTo_S8x256x3136_S8x3136_d1 : S8x256x3136.ReducesTo [1] S8x3136
  bcast_S8x3136_S8x1x3136_0_2 : S8x3136.BroadcastsInDim S8x1x3136 (![0, 2] : Fin 2 → Fin S8x1x3136.rank)
  bcast_S_S8x1x3136 : S_.BroadcastsInDim S8x1x3136 (![] : Fin 0 → Fin S8x1x3136.rank)
  bcast_S8x1x3136_S8x256x3136_0_1_2 : S8x1x3136.BroadcastsInDim S8x256x3136 (![0, 1, 2] : Fin 3 → Fin S8x256x3136.rank)
  bcast_S_S8x3136x3136 : S_.BroadcastsInDim S8x3136x3136 (![] : Fin 0 → Fin S8x3136x3136.rank)
  bcast_S3136x3136_S1x3136x3136_1_2 : S3136x3136.BroadcastsInDim S1x3136x3136 (![1, 2] : Fin 2 → Fin S1x3136x3136.rank)
  bcast_S1x3136x3136_S8x3136x3136_0_1_2 : S1x3136x3136.BroadcastsInDim S8x3136x3136 (![0, 1, 2] : Fin 3 → Fin S8x3136x3136.rank)
  reducesTo_S8x3136x3136_S8x3136_d1 : S8x3136x3136.ReducesTo [1] S8x3136
  bcast_S_S8x3136 : S_.BroadcastsInDim S8x3136 (![] : Fin 0 → Fin S8x3136.rank)
  bcast_S8x1x3136_S8x3136x3136_0_1_2 : S8x1x3136.BroadcastsInDim S8x3136x3136 (![0, 1, 2] : Fin 3 → Fin S8x3136x3136.rank)
  shapeCasts_S8x21x56x56_S8x21x3136 : S8x21x56x56.ShapeCasts S8x21x3136
  shapeCasts_S8x21x3136_S8x21x56x56 : S8x21x3136.ShapeCasts S8x21x56x56
  dot_S8x3136x256_S8x256x3136_S8x3136x3136_2_1_1_2_0_0_wf : DotDims.WF S8x3136x256 S8x256x3136 S8x3136x3136 [2] [1] [1] [2] [0] [0]
  dot_S8x21x3136_S8x3136x3136_S8x21x3136_2_1_1_2_0_0_wf : DotDims.WF S8x21x3136 S8x3136x3136 S8x21x3136 [2] [1] [1] [2] [0] [0]

variable [Facts₀]

def dot_S8x3136x256_S8x256x3136_S8x3136x3136_2_1_1_2_0_0 : DotDims S8x3136x256 S8x256x3136 S8x3136x3136 where
  lhsContracting := [2]
  rhsContracting := [1]
  lhsNonContracting := [1]
  rhsNonContracting := [2]
  lhsBatch := [0]
  rhsBatch := [0]
  wf := dot_S8x3136x256_S8x256x3136_S8x3136x3136_2_1_1_2_0_0_wf
def dot_S8x21x3136_S8x3136x3136_S8x21x3136_2_1_1_2_0_0 : DotDims S8x21x3136 S8x3136x3136 S8x21x3136 where
  lhsContracting := [2]
  rhsContracting := [1]
  lhsNonContracting := [1]
  rhsNonContracting := [2]
  lhsBatch := [0]
  rhsBatch := [0]
  wf := dot_S8x21x3136_S8x3136x3136_S8x21x3136_2_1_1_2_0_0_wf

class Facts : Prop extends Facts₀ where

variable [Facts]
-- ==== Proof.KBody.lean ====
/-
  The kernel body as a triple: on whole staging buffers holding the query block x0, the key block x1, the value block x2
  and the mask block x3 (the two result buffers holding anything), it runs without a fault, leaves the four inputs as they
  were, the weights' buffer at the softmax weights computed from (x0, x1, x3) and the values' buffer at their product with
  x2 — whatever the contents are, at either reading of the floats.
-/
import proofs.«410430_j40656160424176_3_alg».proof.Proof.Gen.Kernel.Launch
import proofs.«410430_j40656160424176_3_alg».proof.Proof.Gen.Kernel.Skeleton
import proofs.«410430_j40656160424176_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 whole-buffer rectangle, as a constant function. -/
theorem hz3 : (![0, 0, 0] : Fin 3 → Nat) = fun _ => 0 := by
  funext a; fin_cases a <;> rfl

/-- The zero offsets of a rank-2 whole-buffer rectangle, as a constant function. -/
theorem hz2 : (![0, 0] : Fin 2 → Nat) = fun _ => 0 := by
  funext a; fin_cases a <;> rfl

/-- One store through the whole-buffer rectangle at zero offsets covers the buffer. -/
theorem cover_whole {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
theorem sound_kernel (c : Dev nD) (E : Set ℕ) (i : grid0.Coords)
    (arg2 : Memref sig .tc .vmem S1x3136x256 .bf16) (harg2 : arg2.IsWhole) (arg3 : Memref sig .tc .vmem S1x256x256 .bf16) (harg3 : arg3.IsWhole)
    (arg4 : Memref sig .tc .vmem S1x21x3136 .bf16) (harg4 : arg4.IsWhole) (arg5 : Memref sig .tc .vmem S3136x256 .f32) (harg5 : arg5.IsWhole)
    (arg6 : Memref sig .tc .vmem S1x3136x256 .f32) (harg6 : arg6.IsWhole) (arg7 : Memref sig .tc .vmem S1x21x256 .f32) (harg7 : arg7.IsWhole)
    (x0 : Vec F S1x3136x256 .bf16) (x1 : Vec F S1x256x256 .bf16) (x2 : Vec F S1x21x3136 .bf16) (x3 : Vec F S3136x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x3)
            ∗ owns (c : Thread nD τ) arg7 fullShare (k0_pay3 x0 x1 x3 x2)) -∗ K ⟨⟩))
      ⊢ wp frame (wpE (defs₀ (F := F)) Variants.none c none) E
          (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one whole-buffer store covers: the buffer reads as its payload, each whole-buffer load as the contents
    rw [View.read_writes_eq_canon _ _ _ (cover_whole hz3 _ _), View.canon_unit_zero (S := S1x3136x256) hz3]
    simp only [View.readAt_eq_ld, View.ld_unit_zero (S := S1x3136x256) hz3, View.ld_unit_zero (S := S1x256x256) hz3,
      View.ld_unit_zero (S := S3136x256) hz2]
  iexists _; isplitr
  swap; · iexact H5
  ipureintro
  rw [View.read_writes_eq_canon _ _ _ (cover_whole hz3 _ _), View.canon_unit_zero (S := S1x21x256) hz3]
  simp only [View.readAt_eq_ld, View.ld_unit_zero (S := S1x3136x256) hz3, View.ld_unit_zero (S := S1x256x256) hz3,
    View.ld_unit_zero (S := S3136x256) hz2, View.ld_unit_zero (S := S1x21x3136) hz3]

end Cert.Kernel.Hand

end
-- ==== Proof.KFrame.lean ====
/-
  The word-level program runs to the end and leaves its four argument arrays as launched.

  The key and mask windows' last column block overhangs their arrays by 192 columns: a fetch there lands the columns
  inside the array and leaves words nothing names past them. The body computes the softmax weights and the aggregated
  values from whole staging buffers, those words too, so at the word level the contents of the two result buffers
  cannot be named. Nothing in this claim reads them: the two result windows are forgotten — handed to the body at any
  contents and taken back at any contents. The body leaves its four inputs untouched: the query and value buffers
  hold their blocks, the key and mask buffers their blocks on the columns inside the arrays. The first three argument
  arrays bypass the region (host lines copy them into the windows' arrays before it) and the one host line after the
  region writes a reshape of the second result only; the mask is an input window's array, which the pipeline only
  reads.
-/
import proofs.«410430_j40656160424176_3_alg».proof.Proof.Gen.Kernel.Frame
import proofs.«410430_j40656160424176_3_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two result windows: nothing reads what the body leaves in them, so nothing of it is named. -/
def forgets : Fin 6 → Bool := fun w => w.val == 4 || w.val == 5

/-- The proof data of the one pipeline on core `c`: the arrays as the region finds them; after the body the query and
    value windows' buffers at their blocks, the key and mask windows' at their blocks filled out past the arrays' end
    with a word nothing reads, the result windows' unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => iblk m c 2 t
    | ⟨3, _⟩ => win0_3.fill (grid0.coords t) (fun _ => Classical.arbitrary _) (iblk m c 3 t)
    | ⟨4, _⟩ => Dat.unnamed 4 t
    | ⟨5, _⟩ => Dat.unnamed 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Classical.arbitrary _) (iblk m c 1 t) := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => Classical.arbitrary _) (iblk m c 3 t) := by dsimp only [dats]

/-- The query and value windows' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The key and mask windows are fetched at every point: their buffers hold the block's part inside the array and
    whatever was there past it. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk
  rw [A_eq]
theorem before0_3 (c : Dev nD) (t : Fin cfg0.N) (d) :
    (dats m 0 c).before 3 t d = win0_3.fill (grid0.coords t) d (iblk m c 3 t) := by
  unfold Dat.before; rw [if_pos (fetch0_3 t)]
  unfold Dat.fetched Dat.blockOf iblk
  rw [A_eq]

/-! ## The body obligation -/

/-- What the body is called with at point `t`, the windows one by one: the result windows' buffers at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X))

/-- and what it returns: the key and mask windows' buffers stated on the part inside the arrays, the result windows'
    at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ X, owns (c : Thread nD τ) (st0_4 t) fullShare X)
    ∗ (∃ X, owns (c : Thread nD τ) (st0_5 t) fullShare X))

/-- The body at any point: the inputs' buffers hold what the fetches left, so the body's triple applies; it hands the
    inputs back untouched, and of the results nothing is asked. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩⟩
  iapply (sound_kernel (F := F) c Set.univ (grid0.coords t) _ _ _ _ _ _ _ _ _ _ _ _ (iblk m c 0 t)
    (win0_1.fill (grid0.coords t) d1 (iblk m c 1 t)) (iblk m c 2 t) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists d1; rw [Window.cut_fill]; iexact H1
  isplitl [H2]; · iexact H2
  isplitl [H3]
  · iexists d3; rw [Window.cut_fill]; iexact H3
  isplitl [H4]; · iexists _; iexact H4
  iexists _; iexact H5

/-- The library's body obligation with the result windows forgotten, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The buffer the host line after the region writes: a reshape of the second result, of which nothing is stated. -/
def T0 : Finset (Ref sig .tc) := {main_v24}

/-- The line after the region writes that buffer only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  cases Proc.devRef_injective _ hb
  exact Finset.mem_singleton_self _

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every input array of the pipeline unchanged, nothing stated
    of the two results, and every other unscoped buffer but the reshaped result at its region-entry contents. -/
theorem run_main : θ_run defs (onTc (τ := τ) (main (F := F))) (s₀ m ρ)
    (Pipeline.RDat.FramePostR (cfgs 0) (fun c => (dats m 0 c).toRForget forgets) T0 (V m)) :=
  Pipeline.RDat.θ_run_frame_around_T cfgs (0 : Fin 1) launch0 defs₀ Variants.none (fun c => (dats m 0 c).toRForget forgets) T0 m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh)
    (hkeep := sfx_keeps) (hT := sfx_writes)
    (hmain := hmain m Variants.none) (hA := A_eq m) (hΦ := fun _ _ => rfl)

/-- The program runs and its four argument arrays end as launched: the first three bypass the region and no host line
    writes them; the mask is an input window's array, which the pipeline only reads. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((A_eq m c 3).trans (V_main_arg3 m c))⟩) (run_main m ρ)

end Cert.Kernel.Hand

end
-- ==== Proof.Spec.lean ====
/-
  Column-wise softmax attention on the extended reals, as one function of four arrays.

  For a batch b and a key position m the scores are, over the query position n,
      score n = (∑_c pq[b,n,c] · pk[b,c,m]) · g[n,m];
  the column is shifted by its largest entry (the fold of max from the value of the word 0xFF800000, which is −∞),
  exponentiated and divided by the column's total. The division is written in two ways: the product with the
  reciprocal of the total (`weightK`) and the quotient by the total (`weightR`). They agree when the scores are
  real numbers: the shifted scores are then real, every exponential is a positive real and so is the total; on the
  extended reals in general they differ (a total of zero gives 0 · ⊤ = 0 against 0 / 0 = ⊥).
  The values aggregated with the weights: out[b,v,m] = ∑_n pv[b,v,n] · attn[b,n,m].
-/
import Idealize.ShloMosaic.PureOps.Ideal
import Idealize.ShloMosaic.PureOps.Ideal.Laws
import Idealize.ShloMosaic.Lib.ValueIdx
import Mathlib.Data.Finset.Fold
import Mathlib.Data.EReal.Inv

noncomputable section

namespace Cert.Attn

open Idealize.ShloMosaic Idealize.ShloMosaic.ValueIdx

abbrev Sq : Shape := ⟨3, ![8, 3136, 256]⟩
abbrev Sk : Shape := ⟨3, ![8, 256, 3136]⟩
abbrev Sv : Shape := ⟨3, ![8, 21, 3136]⟩
abbrev Sg : Shape := ⟨2, ![3136, 3136]⟩
abbrev Sa : Shape := ⟨3, ![8, 3136, 3136]⟩

/-- The masked score of query position `n` against key position `m` in batch `b`. -/
def score (pq : Sq.Idx → EReal) (pk : Sk.Idx → EReal) (g : Sg.Idx → EReal) (b : Fin 8) (m : Fin 3136) (n : Fin 3136) : EReal :=
  (∑ c : Fin 256, pq (ix3 b n c) * pk (ix3 b c m)) * g (ix2 n m)

/-- The largest entry of a column, folded from −∞ (the value of the word 0xFF800000). -/
def colMax (s : Fin 3136 → EReal) : EReal :=
  (Finset.univ : Finset (Fin 3136)).fold max (Ideal.ofBits .f32 0xFF800000#32) s

/-- The exponential of a column shifted by its largest entry. -/
def shifted (s : Fin 3136 → EReal) (n : Fin 3136) : EReal := Ideal.exp (s n - colMax s)

/-- The column's total. -/
def total (s : Fin 3136 → EReal) : EReal := ∑ n : Fin 3136, shifted s n

/-- The softmax weight as a product with the reciprocal of the total. -/
def weightK (s : Fin 3136 → EReal) (n : Fin 3136) : EReal := shifted s n * Ideal.div (Ideal.ofBits .f32 0x3F800000#32) (total s)

/-- The softmax weight as a quotient by the total. -/
def weightR (s : Fin 3136 → EReal) (n : Fin 3136) : EReal := Ideal.div (shifted s n) (total s)

/-- The attention weights: softmax over the query position of the masked scores. -/
def attn (pq : Sq.Idx → EReal) (pk : Sk.Idx → EReal) (g : Sg.Idx → EReal) : Sa.Idx → EReal :=
  fun i => weightK (score pq pk g (i 0) (i 2)) (i 1)

/-- The same with the quotient spelling. -/
def attnR (pq : Sq.Idx → EReal) (pk : Sk.Idx → EReal) (g : Sg.Idx → EReal) : Sa.Idx → EReal :=
  fun i => weightR (score pq pk g (i 0) (i 2)) (i 1)

/-- The values aggregated with the weights. -/
def outv (pv : Sv.Idx → EReal) (a : Sa.Idx → EReal) : Sv.Idx → EReal :=
  fun i => ∑ n : Fin 3136, pv (ix3 (i 0) (i 1) n) * a (ix3 (i 0) n (i 2))

/-- Position (h, w) of a 56 × 56 image as the flat position 56·h + w. -/
def unflat (i : (⟨4, ![8, 21, 56, 56]⟩ : Shape).Idx) : Sv.Idx :=
  ix3 (i 0) (i 1) (⟨(i 2).val * 56 + (i 3).val, by have h2 : (i 2).val < 56 := (i 2).isLt; have h3 : (i 3).val < 56 := (i 3).isLt; omega⟩ : Fin 3136)

/-- An array over flat positions laid out as 56 × 56 images. -/
def asImages (o : Sv.Idx → EReal) : (⟨4, ![8, 21, 56, 56]⟩ : Shape).Idx → EReal := fun i => o (unflat i)

end Cert.Attn

end
-- ==== Proof.Data.lean ====
/-
  The arrays the attention region works on, as the region finds them, and what each window's staging buffer holds after
  the body at a grid point (b, j): the query, key and value blocks as fetched, the mask's column block, and the blocks of
  the attention weights and of the aggregated values — each block of a clipped window filled out past the array's end
  with zeros that nothing reads.
-/
import proofs.«410430_j40656160424176_3_alg».proof.Proof.Gen.KernelIdeal.Frame
import proofs.«410430_j40656160424176_3_alg».proof.Proof.Gen.KernelIdeal.Skeleton
import proofs.«410430_j40656160424176_3_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable (m : (ℓ : Loc nD τ sig) → Buf (Elt Ideal) ℓ)

/-- The normalized queries, position-major: [8, 3136, 256]. -/
abbrev PQ (c : Dev nD) : Cert.Attn.Sq.Idx → EReal := V m c main_v10
/-- The normalized keys: [8, 256, 3136]. -/
abbrev PK (c : Dev nD) : Cert.Attn.Sk.Idx → EReal := V m c main_v20
/-- The values: [8, 21, 3136]. -/
abbrev PV (c : Dev nD) : Cert.Attn.Sv.Idx → EReal := V m c main_v22
/-- The mask: [3136, 3136]. -/
abbrev GAU (c : Dev nD) : Cert.Attn.Sg.Idx → EReal := V m c main_arg3

/-- The attention weights as one function of those arrays. -/
def ATTN (c : Dev nD) : Cert.Attn.Sa.Idx → EReal := Cert.Attn.attn (PQ m c) (PK m c) (GAU m c)
/-- The aggregated values. -/
def OUTV (c : Dev nD) : Cert.Attn.Sv.Idx → EReal := Cert.Attn.outv (PV m c) (ATTN m c)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => win0_3.fill (grid0.coords t) (fun _ => (0 : EReal)) (iblk m c 3 t)
    | ⟨4, _⟩ => win0_4.fill (grid0.coords t) (fun _ => (0 : EReal)) ((win0_4.blk t).view.read (Elt Ideal) (ATTN m c))
    | ⟨5, _⟩ => win0_5.fill (grid0.coords t) (fun _ => (0 : EReal)) ((win0_5.blk t).view.read (Elt Ideal) (OUTV m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => (0 : EReal)) (iblk m c 3 t) := by dsimp only [dats]
theorem after0_4 (c : Dev nD) (t : Fin cfg0.N) :
    (dats m 0 c).after 4 t = win0_4.fill (grid0.coords t) (fun _ => (0 : EReal)) ((win0_4.blk t).view.read (Elt Ideal) (ATTN m c)) := by
  dsimp only [dats]
theorem after0_5 (c : Dev nD) (t : Fin cfg0.N) :
    (dats m 0 c).after 5 t = win0_5.fill (grid0.coords t) (fun _ => (0 : EReal)) ((win0_5.blk t).view.read (Elt Ideal) (OUTV m c)) := by
  dsimp only [dats]

end Cert.KernelIdeal.Hand

end
-- ==== Proof.Body.lean ====
/-
  The kernel body as a triple: on whole staging buffers holding the query block x0, the key block x1, the value block x2
  and the mask block x3 (the two result buffers holding anything), it runs without a fault, leaves the four inputs as they
  were, the weights' buffer at the softmax weights computed from (x0, x1, x3) and the values' buffer at their product with
  x2 — whatever the contents are, at either reading of the floats.
-/
import proofs.«410430_j40656160424176_3_alg».proof.Proof.Gen.KernelIdeal.Launch
import proofs.«410430_j40656160424176_3_alg».proof.Proof.Gen.KernelIdeal.Skeleton
import proofs.«410430_j40656160424176_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 whole-buffer rectangle, as a constant function. -/
theorem hz3 : (![0, 0, 0] : Fin 3 → Nat) = fun _ => 0 := by
  funext a; fin_cases a <;> rfl

/-- The zero offsets of a rank-2 whole-buffer rectangle, as a constant function. -/
theorem hz2 : (![0, 0] : Fin 2 → Nat) = fun _ => 0 := by
  funext a; fin_cases a <;> rfl

/-- One store through the whole-buffer rectangle at zero offsets covers the buffer. -/
theorem cover_whole {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
theorem sound_kernel (c : Dev nD) (E : Set ℕ) (i : grid0.Coords)
    (arg2 : Memref sig .tc .vmem S1x3136x256 .bf16) (harg2 : arg2.IsWhole) (arg3 : Memref sig .tc .vmem S1x256x256 .bf16) (harg3 : arg3.IsWhole)
    (arg4 : Memref sig .tc .vmem S1x21x3136 .bf16) (harg4 : arg4.IsWhole) (arg5 : Memref sig .tc .vmem S3136x256 .f32) (harg5 : arg5.IsWhole)
    (arg6 : Memref sig .tc .vmem S1x3136x256 .f32) (harg6 : arg6.IsWhole) (arg7 : Memref sig .tc .vmem S1x21x256 .f32) (harg7 : arg7.IsWhole)
    (x0 : Vec F S1x3136x256 .bf16) (x1 : Vec F S1x256x256 .bf16) (x2 : Vec F S1x21x3136 .bf16) (x3 : Vec F S3136x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x0 x1 x3)
            ∗ owns (c : Thread nD τ) arg7 fullShare (k0_pay3 x0 x1 x3 x2)) -∗ K ⟨⟩))
      ⊢ wp frame (wpE (defs₀ (F := F)) Variants.none c none) E
          (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one whole-buffer store covers: the buffer reads as its payload, each whole-buffer load as the contents
    rw [View.read_writes_eq_canon _ _ _ (cover_whole hz3 _ _), View.canon_unit_zero (S := S1x3136x256) hz3]
    simp only [View.readAt_eq_ld, View.ld_unit_zero (S := S1x3136x256) hz3, View.ld_unit_zero (S := S1x256x256) hz3,
      View.ld_unit_zero (S := S3136x256) hz2]
  iexists _; isplitr
  swap; · iexact H5
  ipureintro
  rw [View.read_writes_eq_canon _ _ _ (cover_whole hz3 _ _), View.canon_unit_zero (S := S1x21x256) hz3]
  simp only [View.readAt_eq_ld, View.ld_unit_zero (S := S1x3136x256) hz3, View.ld_unit_zero (S := S1x256x256) hz3,
    View.ld_unit_zero (S := S3136x256) hz2, View.ld_unit_zero (S := S1x21x3136) hz3]

end Cert.KernelIdeal.Hand

end
-- ==== Proof.PayIdx.lean ====
/-
  The body's two results read at an index: the softmax weight of column j at row n, and the product of the value
  block with the weights at (v, j). Each depends on the key block and on the mask block through their column j only.
-/
import proofs.«410430_j40656160424176_3_alg».proof.Proof.Gen.KernelIdeal.Skeleton
import proofs.«410430_j40656160424176_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.ValueIdx

/-- The scores of column `j` of a block: over the row `n`, the inner product of query row `n` with key column `j`, times
    the mask's entry. -/
def blockScore (X0 : Vec Ideal S1x3136x256 .bf16) (X1 : Vec Ideal S1x256x256 .bf16) (X3 : Vec Ideal S3136x256 .f32)
    (j : Fin 256) (n : Fin 3136) : EReal :=
  (∑ c : Fin 256, X0 (ix3 (0 : Fin 1) n c) * X1 (ix3 (0 : Fin 1) c j)) * X3 (ix2 n j)

/-! ## The query–key product: which operand entries an output entry reads -/

theorem lhs_qk_0 (i : S3136x256.Idx) (q : dot_S3136x256_S256x256_S3136x256_1_0_0_1_n_n.contr.Idx) :
    (dot_S3136x256_S256x256_S3136x256_1_0_0_1_n_n.lhsIdx i q 0).val = (i 0).val := by
  unfold DotDims.lhsIdx
  rw [dif_neg (show ¬(0 : Fin S3136x256.rank) ∈ dot_S3136x256_S256x256_S3136x256_1_0_0_1_n_n.lhsBatch by decide), dif_pos (show (0 : Fin S3136x256.rank) ∈ dot_S3136x256_S256x256_S3136x256_1_0_0_1_n_n.lhsNonContracting by decide)]
  rfl
theorem lhs_qk_1 (i : S3136x256.Idx) (q : dot_S3136x256_S256x256_S3136x256_1_0_0_1_n_n.contr.Idx) :
    (dot_S3136x256_S256x256_S3136x256_1_0_0_1_n_n.lhsIdx i q 1).val = (q ⟨0, by decide⟩).val :=
  dot_S3136x256_S256x256_S3136x256_1_0_0_1_n_n.lhsIdx_val_of_single rfl i q
theorem rhs_qk_0 (i : S3136x256.Idx) (q : dot_S3136x256_S256x256_S3136x256_1_0_0_1_n_n.contr.Idx) :
    (dot_S3136x256_S256x256_S3136x256_1_0_0_1_n_n.rhsIdx i q 0).val = (q ⟨0, by decide⟩).val :=
  dot_S3136x256_S256x256_S3136x256_1_0_0_1_n_n.rhsIdx_val_of_single rfl i q
theorem rhs_qk_1 (i : S3136x256.Idx) (q : dot_S3136x256_S256x256_S3136x256_1_0_0_1_n_n.contr.Idx) :
    (dot_S3136x256_S256x256_S3136x256_1_0_0_1_n_n.rhsIdx i q 1).val = (i 1).val := by
  unfold DotDims.rhsIdx
  rw [dif_neg (show ¬(1 : Fin S256x256.rank) ∈ dot_S3136x256_S256x256_S3136x256_1_0_0_1_n_n.rhsBatch by decide), dif_pos (show (1 : Fin S256x256.rank) ∈ dot_S3136x256_S256x256_S3136x256_1_0_0_1_n_n.rhsNonContracting by decide)]
  rfl

/-- The query–key product into a zero accumulator, at (n, j): the inner product of row n with column j. -/
theorem qk_apply (A : FVec Ideal S3136x256 .bf16) (B : FVec Ideal S256x256 .bf16) (n : Fin 3136) (j : Fin 256) :
    matmul dot_S3136x256_S256x256_S3136x256_1_0_0_1_n_n none A B (constant (F := Ideal) S3136x256 .f32 0x00000000#32) (ix2 n j)
      = ∑ c : Fin 256, A (ix2 n c) * B (ix2 c j) := by
  show FloatOps.matmul dot_S3136x256_S256x256_S3136x256_1_0_0_1_n_n none A B (constant (F := Ideal) S3136x256 .f32 0x00000000#32) (ix2 n j) = _
  rw [Ideal.matmul_constant_zero_apply, ← Equiv.sum_comp (contrEquiv1 dot_S3136x256_S256x256_S3136x256_1_0_0_1_n_n 256 rfl rfl).symm]
  refine Finset.sum_congr rfl fun k _ => ?_
  have hk := contrEquiv1_symm_val dot_S3136x256_S256x256_S3136x256_1_0_0_1_n_n 256 rfl rfl k
  have el : dot_S3136x256_S256x256_S3136x256_1_0_0_1_n_n.lhsIdx (ix2 n j) ((contrEquiv1 dot_S3136x256_S256x256_S3136x256_1_0_0_1_n_n 256 rfl rfl).symm k) = ix2 n k := funext fun a => Fin.ext (by
    match a with
    | ⟨0, _⟩ => exact lhs_qk_0 _ _
    | ⟨1, _⟩ => exact (lhs_qk_1 _ _).trans hk)
  have er : dot_S3136x256_S256x256_S3136x256_1_0_0_1_n_n.rhsIdx (ix2 n j) ((contrEquiv1 dot_S3136x256_S256x256_S3136x256_1_0_0_1_n_n 256 rfl rfl).symm k) = ix2 k j := funext fun a => Fin.ext (by
    match a with
    | ⟨0, _⟩ => exact (rhs_qk_0 _ _).trans hk
    | ⟨1, _⟩ => exact rhs_qk_1 _ _)
  rw [el, er]

/-! ## The two reductions down a column -/

/-- The index a column reduction reads at row n of column j. -/
theorem lift_col (j : Fin 256) (n : Fin 3136) : reduces_S3136x256_S256.lift (ix1 j) n = ix2 n j :=
  funext fun a => Fin.ext (by
    match a with
    | ⟨0, _⟩ => rfl
    | ⟨1, _⟩ => rfl)

/-- The largest entry of column j. -/
theorem colMax_read (s : FVec Ideal S3136x256 .f32) (j : Fin 256) :
    multiReduction .maximumf [0] S256 s 0xFF800000#32 reduces_S3136x256_S256 (.inl rfl) rfl (ix1 j)
      = Cert.Attn.colMax (fun n => s (ix2 n j)) := by
  refine (Ideal.multiReduction_maximumf_single s 0xFF800000#32 reduces_S3136x256_S256 (.inl rfl) rfl (ix1 j)).trans ?_
  unfold Cert.Attn.colMax
  have e : (s ∘ reduces_S3136x256_S256.lift (ix1 j)) = fun n : Fin 3136 => s (ix2 n j) :=
    funext fun n => congrArg s (lift_col j n)
  rw [e]
  rfl

/-- The total of column j. -/
theorem colSum_read (s : FVec Ideal S3136x256 .f32) (j : Fin 256) :
    multiReduction .add [0] S256 s 0x00000000#32 reduces_S3136x256_S256 (.inl rfl) rfl (ix1 j)
      = ∑ n : Fin 3136, s (ix2 n j) := by
  refine (Ideal.multiReduction_add_single s 0x00000000#32 reduces_S3136x256_S256 (.inl rfl) rfl (ix1 j)).trans ?_
  exact Finset.sum_congr rfl fun n _ => congrArg s (lift_col j n)

/-- The word 0x3F800000 is one. -/
theorem mul_one_word (x : EReal) : x * Ideal.ofBits .f32 0x3F800000#32 = x := by
  rw [Ideal.ofBits_one_f32, mul_one]

theorem exp_read (s : FVec Ideal S3136x256 .f32) (i : S3136x256.Idx) : exp s i = Ideal.exp (s i) := rfl

/-! ## The softmax of a column -/

/-- The exponential of an entry shifted by its column's largest entry. -/
theorem shift_read (s : FVec Ideal S3136x256 .f32) (n : Fin 3136) (j : Fin 256) :
    exp (subf s (broadcastTo S3136x256 (shapeCast S1x256
        (multiReduction .maximumf [0] S256 s 0xFF800000#32 reduces_S3136x256_S256 (.inl rfl) rfl) shapeCasts_S256_S1x256)
        broadcasts_S1x256_S3136x256)) (ix2 n j)
      = Cert.Attn.shifted (fun n => s (ix2 n j)) n := by
  rw [exp_read, subf_apply, broadcastTo_1b_ab_apply, shapeCast_a_1a_apply, colMax_read]
  rfl

/-- The shifted exponential times the reciprocal of its column's total. -/
theorem softmax_read (s : FVec Ideal S3136x256 .f32) (n : Fin 3136) (j : Fin 256) :
    mulf
      (exp (subf s (broadcastTo S3136x256 (shapeCast S1x256
        (multiReduction .maximumf [0] S256 s 0xFF800000#32 reduces_S3136x256_S256 (.inl rfl) rfl) shapeCasts_S256_S1x256)
        broadcasts_S1x256_S3136x256)))
      (broadcastTo S3136x256 (divf (broadcast S1x256 (Scalar.ofBits (F := Ideal) .f32 0x3F800000#32)) (shapeCast S1x256
        (multiReduction .add [0] S256
          (exp (subf s (broadcastTo S3136x256 (shapeCast S1x256
            (multiReduction .maximumf [0] S256 s 0xFF800000#32 reduces_S3136x256_S256 (.inl rfl) rfl) shapeCasts_S256_S1x256)
            broadcasts_S1x256_S3136x256)))
          0x00000000#32 reduces_S3136x256_S256 (.inl rfl) rfl) shapeCasts_S256_S1x256))
        broadcasts_S1x256_S3136x256) (ix2 n j)
      = Cert.Attn.weightK (fun n => s (ix2 n j)) n := by
  rw [mulf_apply, shift_read, broadcastTo_1b_ab_apply, divf_apply, broadcast_apply, shapeCast_a_1a_apply, colSum_read]
  unfold Cert.Attn.weightK Cert.Attn.total
  exact congrArg (fun t => Cert.Attn.shifted (fun n => s (ix2 n j)) n * Ideal.div (Ideal.ofBits .f32 0x3F800000#32) t)
    (Finset.sum_congr rfl fun m _ => shift_read s m j)

/-! ## The payloads -/

/-- The masked score at (n, j). -/
theorem score_read (X0 : Vec Ideal S1x3136x256 .bf16) (X1 : Vec Ideal S1x256x256 .bf16) (X3 : Vec Ideal S3136x256 .f32)
    (n : Fin 3136) (j : Fin 256) :
    mulf (mulf (matmul dot_S3136x256_S256x256_S3136x256_1_0_0_1_n_n none
        (shapeCast S3136x256 X0 shapeCasts_S1x3136x256_S3136x256 : FVec Ideal S3136x256 .bf16) (shapeCast S256x256 X1 shapeCasts_S1x256x256_S256x256 : FVec Ideal S256x256 .bf16)
        (constant (F := Ideal) S3136x256 .f32 0x00000000#32))
      (broadcast S3136x256 (Scalar.ofBits (F := Ideal) .f32 0x3F800000#32))) X3 (ix2 n j)
      = blockScore X0 X1 X3 j n := by
  rw [mulf_apply, mulf_apply, broadcast_apply, qk_apply]
  unfold blockScore
  simp only [shapeCast_1ab_ab_apply]
  rw [show (Scalar.ofBits (F := Ideal) .f32 0x3F800000#32 : EReal) = Ideal.ofBits .f32 0x3F800000#32 from rfl, mul_one_word]

theorem pay1_apply (X0 : Vec Ideal S1x3136x256 .bf16) (X1 : Vec Ideal S1x256x256 .bf16) (X3 : Vec Ideal S3136x256 .f32)
    (n : Fin 3136) (j : Fin 256) :
    k0_pay1 (F := Ideal) X0 X1 X3 (ix2 n j) = Cert.Attn.weightK (blockScore X0 X1 X3 j) n := by
  unfold k0_pay1
  refine (softmax_read _ n j).trans ?_
  exact congrArg (fun f => Cert.Attn.weightK f n) (funext fun n' => score_read X0 X1 X3 n' j)

theorem pay2_apply (X0 : Vec Ideal S1x3136x256 .bf16) (X1 : Vec Ideal S1x256x256 .bf16) (X3 : Vec Ideal S3136x256 .f32)
    (n : Fin 3136) (j : Fin 256) :
    k0_pay2 (F := Ideal) X0 X1 X3 (ix3 (0 : Fin 1) n j) = Cert.Attn.weightK (blockScore X0 X1 X3 j) n := by
  unfold k0_pay2
  exact (shapeCast_ab_1ab_apply _ _ _ n j).trans (pay1_apply X0 X1 X3 n j)

/-! ## The product of the value block with the weights -/

theorem lhs_pv_0 (i : S21x256.Idx) (q : dot_S21x3136_S3136x256_S21x256_1_0_0_1_n_n.contr.Idx) :
    (dot_S21x3136_S3136x256_S21x256_1_0_0_1_n_n.lhsIdx i q 0).val = (i 0).val := by
  unfold DotDims.lhsIdx
  rw [dif_neg (show ¬(0 : Fin S21x3136.rank) ∈ dot_S21x3136_S3136x256_S21x256_1_0_0_1_n_n.lhsBatch by decide), dif_pos (show (0 : Fin S21x3136.rank) ∈ dot_S21x3136_S3136x256_S21x256_1_0_0_1_n_n.lhsNonContracting by decide)]
  rfl
theorem lhs_pv_1 (i : S21x256.Idx) (q : dot_S21x3136_S3136x256_S21x256_1_0_0_1_n_n.contr.Idx) :
    (dot_S21x3136_S3136x256_S21x256_1_0_0_1_n_n.lhsIdx i q 1).val = (q ⟨0, by decide⟩).val :=
  dot_S21x3136_S3136x256_S21x256_1_0_0_1_n_n.lhsIdx_val_of_single rfl i q
theorem rhs_pv_0 (i : S21x256.Idx) (q : dot_S21x3136_S3136x256_S21x256_1_0_0_1_n_n.contr.Idx) :
    (dot_S21x3136_S3136x256_S21x256_1_0_0_1_n_n.rhsIdx i q 0).val = (q ⟨0, by decide⟩).val :=
  dot_S21x3136_S3136x256_S21x256_1_0_0_1_n_n.rhsIdx_val_of_single rfl i q
theorem rhs_pv_1 (i : S21x256.Idx) (q : dot_S21x3136_S3136x256_S21x256_1_0_0_1_n_n.contr.Idx) :
    (dot_S21x3136_S3136x256_S21x256_1_0_0_1_n_n.rhsIdx i q 1).val = (i 1).val := by
  unfold DotDims.rhsIdx
  rw [dif_neg (show ¬(1 : Fin S3136x256.rank) ∈ dot_S21x3136_S3136x256_S21x256_1_0_0_1_n_n.rhsBatch by decide), dif_pos (show (1 : Fin S3136x256.rank) ∈ dot_S21x3136_S3136x256_S21x256_1_0_0_1_n_n.rhsNonContracting by decide)]
  rfl

/-- The value–weight product into a zero accumulator, at (v, j): the inner product of value row v with weight column j. -/
theorem pv_apply (A : FVec Ideal S21x3136 .bf16) (B : FVec Ideal S3136x256 .bf16) (v : Fin 21) (j : Fin 256) :
    matmul dot_S21x3136_S3136x256_S21x256_1_0_0_1_n_n none A B (constant (F := Ideal) S21x256 .f32 0x00000000#32) (ix2 v j)
      = ∑ n : Fin 3136, A (ix2 v n) * B (ix2 n j) := by
  show FloatOps.matmul dot_S21x3136_S3136x256_S21x256_1_0_0_1_n_n none A B (constant (F := Ideal) S21x256 .f32 0x00000000#32) (ix2 v j) = _
  rw [Ideal.matmul_constant_zero_apply, ← Equiv.sum_comp (contrEquiv1 dot_S21x3136_S3136x256_S21x256_1_0_0_1_n_n 3136 rfl rfl).symm]
  refine Finset.sum_congr rfl fun k _ => ?_
  have hk := contrEquiv1_symm_val dot_S21x3136_S3136x256_S21x256_1_0_0_1_n_n 3136 rfl rfl k
  have el : dot_S21x3136_S3136x256_S21x256_1_0_0_1_n_n.lhsIdx (ix2 v j) ((contrEquiv1 dot_S21x3136_S3136x256_S21x256_1_0_0_1_n_n 3136 rfl rfl).symm k) = ix2 v k := funext fun a => Fin.ext (by
    match a with
    | ⟨0, _⟩ => exact lhs_pv_0 _ _
    | ⟨1, _⟩ => exact (lhs_pv_1 _ _).trans hk)
  have er : dot_S21x3136_S3136x256_S21x256_1_0_0_1_n_n.rhsIdx (ix2 v j) ((contrEquiv1 dot_S21x3136_S3136x256_S21x256_1_0_0_1_n_n 3136 rfl rfl).symm k) = ix2 k j := funext fun a => Fin.ext (by
    match a with
    | ⟨0, _⟩ => exact (rhs_pv_0 _ _).trans hk
    | ⟨1, _⟩ => exact rhs_pv_1 _ _)
  rw [el, er]

theorem pay3_apply (X0 : Vec Ideal S1x3136x256 .bf16) (X1 : Vec Ideal S1x256x256 .bf16) (X3 : Vec Ideal S3136x256 .f32)
    (X2 : Vec Ideal S1x21x3136 .bf16) (v : Fin 21) (j : Fin 256) :
    k0_pay3 (F := Ideal) X0 X1 X3 X2 (ix3 (0 : Fin 1) v j)
      = ∑ n : Fin 3136, X2 (ix3 (0 : Fin 1) v n) * Cert.Attn.weightK (blockScore X0 X1 X3 j) n := by
  unfold k0_pay3
  refine (shapeCast_ab_1ab_apply _ _ _ v j).trans ?_
  refine (pv_apply _ _ v j).trans ?_
  refine Finset.sum_congr rfl fun n _ => ?_
  rw [shapeCast_1ab_ab_apply, truncf_apply, pay1_apply]

end Cert.KernelIdeal.Hand

end
-- ==== Proof.Cut.lean ====
/-
  What the body leaves in the two result buffers, on the columns inside the arrays, is the block of the attention
  weights and of the aggregated values: column j of the block at point (b, jb) is column 256·jb + j of batch b, its
  scores read the key block and the mask block in column j only, and on the columns inside the arrays those blocks
  hold the arrays' entries whatever fills their tails.
-/
import proofs.«410430_j40656160424176_3_alg».proof.Proof.Data
import proofs.«410430_j40656160424176_3_alg».proof.Proof.PayIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The windows' block indices and cut sizes at a point, decided over the grid: the query and value blocks follow the
    batch; the key, mask and result blocks follow the column block, and are cut alike at the arrays' last column. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = win0_4.index t (2 : Fin 3)
    ∧ win0_4.index t (1 : Fin 3) = 0
    ∧ win0_5.index t (0 : Fin 3) = win0_4.index t (0 : Fin 3) ∧ win0_5.index t (1 : Fin 3) = 0
    ∧ win0_5.index t (2 : Fin 3) = win0_4.index t (2 : Fin 3)
    ∧ win0_1.xsize (grid0.coords t) (0 : Fin 3) = 1 ∧ win0_1.xsize (grid0.coords t) (1 : Fin 3) = 256
    ∧ win0_1.xsize (grid0.coords t) (2 : Fin 3) = win0_4.xsize (grid0.coords t) (2 : Fin 3)
    ∧ win0_3.xsize (grid0.coords t) (0 : Fin 2) = 3136
    ∧ win0_3.xsize (grid0.coords t) (1 : Fin 2) = win0_4.xsize (grid0.coords t) (2 : Fin 3)
    ∧ win0_4.xsize (grid0.coords t) (0 : Fin 3) = 1 ∧ win0_4.xsize (grid0.coords t) (1 : Fin 3) = 3136
    ∧ win0_5.xsize (grid0.coords t) (0 : Fin 3) = 1 ∧ win0_5.xsize (grid0.coords t) (1 : Fin 3) = 21
    ∧ win0_5.xsize (grid0.coords t) (2 : Fin 3) = win0_4.xsize (grid0.coords t) (2 : Fin 3) :=
  (by decide +kernel : ∀ t : Fin grid0.N, _)

/-- The query block at a point is the batch's rows of the normalized queries. -/
theorem qblk_apply (c : Dev nD) (t : Fin cfg0.N) (b : Fin 8) (hb : b.val = win0_4.index t (0 : Fin 3)) (n : Fin 3136) (k : Fin 256) :
    iblk m c 0 t (ix3 (0 : Fin 1) n k) = PQ m c (ix3 b n k) := by
  obtain ⟨e00, e01, e02, -⟩ := idx_facts t
  show V m c main_v10 (((cfg0.win 0).blk t).view.emb (ix3 (0 : Fin 1) n k)) = V m c main_v10 (ix3 b n k)
  congr 1
  funext a; apply Fin.ext
  match a with
  | ⟨0, _⟩ => show win0_0.index t (0 : Fin 3) * 1 + 1 * 0 = b.val; omega
  | ⟨1, _⟩ => show win0_0.index t (1 : Fin 3) * 3136 + 1 * n.val = n.val; omega
  | ⟨2, _⟩ => show win0_0.index t (2 : Fin 3) * 256 + 1 * k.val = k.val; omega

/-- The value block at a point is the batch's rows of the values. -/
theorem vblk_apply (c : Dev nD) (t : Fin cfg0.N) (b : Fin 8) (hb : b.val = win0_4.index t (0 : Fin 3)) (v : Fin 21) (n : Fin 3136) :
    iblk m c 2 t (ix3 (0 : Fin 1) v n) = PV m c (ix3 b v n) := by
  obtain ⟨-, -, -, -, -, -, e20, e21, e22, -⟩ := idx_facts t
  show V m c main_v22 (((cfg0.win 2).blk t).view.emb (ix3 (0 : Fin 1) v n)) = V m c main_v22 (ix3 b v n)
  congr 1
  funext a; apply Fin.ext
  match a with
  | ⟨0, _⟩ => show win0_2.index t (0 : Fin 3) * 1 + 1 * 0 = b.val; omega
  | ⟨1, _⟩ => show win0_2.index t (1 : Fin 3) * 21 + 1 * v.val = v.val; omega
  | ⟨2, _⟩ => show win0_2.index t (2 : Fin 3) * 3136 + 1 * n.val = n.val; omega

/-- The key block at a point, filled out past the array's end with anything, holds in a column inside the array the
    batch's keys at that column. -/
theorem kblk_apply (c : Dev nD) (t : Fin cfg0.N) (d1 : S1x256x256.Idx → EReal) (b : Fin 8) (hb : b.val = win0_4.index t (0 : Fin 3))
    (k : Fin 256) (j : Fin 256) (hj : j.val < win0_4.xsize (grid0.coords t) (2 : Fin 3))
    (mm : Fin 3136) (hm : mm.val = win0_4.index t (2 : Fin 3) * 256 + j.val) :
    win0_1.fill (grid0.coords t) d1 (iblk m c 1 t) (ix3 (0 : Fin 1) k j) = PK m c (ix3 b k mm) := by
  obtain ⟨-, -, -, e10, e11, e12, -, -, -, -, -, -, -, -, -, x10, x11, x12, -⟩ := idx_facts t
  have hmv : win0_1.moved (grid0.coords t) (ix3 (0 : Fin 1) k j) = true := (win0_1.moved_iff _ _).mpr fun a => by
    match a with
    | ⟨0, _⟩ => show 0 < win0_1.xsize (grid0.coords t) (0 : Fin 3); omega
    | ⟨1, _⟩ => show k.val < win0_1.xsize (grid0.coords t) (1 : Fin 3); have := k.isLt; omega
    | ⟨2, _⟩ => show j.val < win0_1.xsize (grid0.coords t) (2 : Fin 3); omega
  unfold Window.fill
  rw [dif_pos hmv]
  show V m c main_v20 (((cfg0.win 1).blk t).view.emb _) = V m c main_v20 (ix3 b k mm)
  congr 1
  funext a; apply Fin.ext
  match a with
  | ⟨0, _⟩ => show win0_1.index t (0 : Fin 3) * 1 + 1 * 0 = b.val; omega
  | ⟨1, _⟩ => show win0_1.index t (1 : Fin 3) * 256 + 1 * k.val = k.val; omega
  | ⟨2, _⟩ => show win0_1.index t (2 : Fin 3) * 256 + 1 * j.val = mm.val; omega

/-- The mask block at a point, filled out likewise, holds in a column inside the array the mask's column. -/
theorem gblk_apply (c : Dev nD) (t : Fin cfg0.N) (d3 : S3136x256.Idx → EReal)
    (n : Fin 3136) (j : Fin 256) (hj : j.val < win0_4.xsize (grid0.coords t) (2 : Fin 3))
    (mm : Fin 3136) (hm : mm.val = win0_4.index t (2 : Fin 3) * 256 + j.val) :
    win0_3.fill (grid0.coords t) d3 (iblk m c 3 t) (ix2 n j) = GAU m c (ix2 n mm) := by
  obtain ⟨-, -, -, -, -, -, -, -, -, e30, e31, -, -, -, -, -, -, -, x30, x31, -⟩ := idx_facts t
  have hmv : win0_3.moved (grid0.coords t) (ix2 n j) = true := (win0_3.moved_iff _ _).mpr fun a => by
    match a with
    | ⟨0, _⟩ => show n.val < win0_3.xsize (grid0.coords t) (0 : Fin 2); have := n.isLt; omega
    | ⟨1, _⟩ => show j.val < win0_3.xsize (grid0.coords t) (1 : Fin 2); omega
  unfold Window.fill
  rw [dif_pos hmv]
  show V m c main_arg3 (((cfg0.win 3).blk t).view.emb _) = V m c main_arg3 (ix2 n mm)
  congr 1
  funext a; apply Fin.ext
  match a with
  | ⟨0, _⟩ => show win0_3.index t (0 : Fin 2) * 3136 + 1 * n.val = n.val; omega
  | ⟨1, _⟩ => show win0_3.index t (1 : Fin 2) * 256 + 1 * j.val = mm.val; omega

/-- The scores of a block's column are the array's scores of that column, when the blocks hold the arrays' entries there. -/
theorem blockScore_eq (X0 : Vec Ideal S1x3136x256 .bf16) (X1 : Vec Ideal S1x256x256 .bf16) (X3 : Vec Ideal S3136x256 .f32)
    (pq : Cert.Attn.Sq.Idx → EReal) (pk : Cert.Attn.Sk.Idx → EReal) (g : Cert.Attn.Sg.Idx → EReal)
    (b : Fin 8) (jc : Fin 256) (mm : Fin 3136)
    (h0 : ∀ (n : Fin 3136) (k : Fin 256), X0 (ix3 (0 : Fin 1) n k) = pq (ix3 b n k))
    (h1 : ∀ k : Fin 256, X1 (ix3 (0 : Fin 1) k jc) = pk (ix3 b k mm))
    (h3 : ∀ n : Fin 3136, X3 (ix2 n jc) = g (ix2 n mm)) :
    blockScore X0 X1 X3 jc = Cert.Attn.score pq pk g b mm := by
  funext n
  unfold blockScore Cert.Attn.score
  rw [h3 n]
  exact congrArg (· * g (ix2 n mm)) (Finset.sum_congr rfl fun k _ => by rw [h0 n k, h1 k])

/-- The attention weights at (b, n, k) and the aggregated values at (b, v, k), unfolded. -/
theorem ATTN_apply (c : Dev nD) (b : Fin 8) (n : Fin 3136) (k : Fin 3136) :
    ATTN m c (ix3 b n k) = Cert.Attn.weightK (Cert.Attn.score (PQ m c) (PK m c) (GAU m c) b k) n := rfl
theorem OUTV_apply (c : Dev nD) (b : Fin 8) (v : Fin 21) (k : Fin 3136) :
    OUTV m c (ix3 b v k) = ∑ n : Fin 3136, PV m c (ix3 b v n) * ATTN m c (ix3 b n k) := rfl

set_option maxHeartbeats 1000000 in
/-- The weights' buffer after the body, on the columns inside the array, is the point's block of the attention weights. -/
theorem cut_attn (c : Dev nD) (t : Fin cfg0.N) (d1 : S1x256x256.Idx → EReal) (d3 : S3136x256.Idx → EReal) :
    win0_4.cut (grid0.coords t)
        (k0_pay2 (F := Ideal) (iblk m c 0 t) (win0_1.fill (grid0.coords t) d1 (iblk m c 1 t)) (win0_3.fill (grid0.coords t) d3 (iblk m c 3 t)))
      = (win0_4.blk t).view.read (Elt Ideal) (ATTN m c) := by
  obtain ⟨-, -, -, -, -, -, -, -, -, -, -, e41, -, -, -, -, -, -, -, -, x40, x41, -⟩ := idx_facts t
  funext j
  have hj0 : (j 0).val < win0_4.xsize (grid0.coords t) (0 : Fin 3) := (j 0).isLt
  have hj1 : (j 1).val < win0_4.xsize (grid0.coords t) (1 : Fin 3) := (j 1).isLt
  have hj2 : (j 2).val < win0_4.xsize (grid0.coords t) (2 : Fin 3) := (j 2).isLt
  have hj2' : (j 2).val < 256 := lt_of_lt_of_le hj2 (win0_4.xsize_le (grid0.coords t) (2 : Fin 3))
  have hi0 : win0_4.index t (0 : Fin 3) * 1 + 1 * (j 0).val < 8 := (((cfg0.win 4).blk t).view.emb j 0).isLt
  have hi2 : win0_4.index t (2 : Fin 3) * 256 + 1 * (j 2).val < 3136 := (((cfg0.win 4).blk t).view.emb j 2).isLt
  let b : Fin 8 := ⟨win0_4.index t (0 : Fin 3), by omega⟩
  let n : Fin 3136 := ⟨(j 1).val, by omega⟩
  let jc : Fin 256 := ⟨(j 2).val, hj2'⟩
  let mm : Fin 3136 := ⟨win0_4.index t (2 : Fin 3) * 256 + (j 2).val, by omega⟩
  have hx : win0_4.xinj (grid0.coords t) j = ix3 (0 : Fin 1) n jc := funext fun a => Fin.ext (by
    match a with
    | ⟨0, _⟩ => show (j 0).val = 0; omega
    | ⟨1, _⟩ => rfl
    | ⟨2, _⟩ => rfl)
  have hemb : ((cfg0.win 4).blk t).view.emb j = ix3 b n mm := funext fun a => Fin.ext (by
    match a with
    | ⟨0, _⟩ => show win0_4.index t (0 : Fin 3) * 1 + 1 * (j 0).val = win0_4.index t (0 : Fin 3); omega
    | ⟨1, _⟩ => show win0_4.index t (1 : Fin 3) * 3136 + 1 * (j 1).val = (j 1).val; omega
    | ⟨2, _⟩ => show win0_4.index t (2 : Fin 3) * 256 + 1 * (j 2).val = win0_4.index t (2 : Fin 3) * 256 + (j 2).val; omega)
  have hs := blockScore_eq (iblk m c 0 t) (win0_1.fill (grid0.coords t) d1 (iblk m c 1 t)) (win0_3.fill (grid0.coords t) d3 (iblk m c 3 t))
    (PQ m c) (PK m c) (GAU m c) b jc mm (fun n' k => qblk_apply m c t b rfl n' k)
    (fun k => kblk_apply m c t d1 b rfl k jc hj2 mm rfl) (fun n' => gblk_apply m c t d3 n' jc hj2 mm rfl)
  show k0_pay2 (F := Ideal) _ _ _ (win0_4.xinj (grid0.coords t) j) = ATTN m c (((cfg0.win 4).blk t).view.emb j)
  rw [hx, hemb, ATTN_apply, ← hs]
  exact pay2_apply _ _ _ n jc

set_option maxHeartbeats 1000000 in
/-- The values' buffer after the body, on the columns inside the array, is the point's block of the aggregated values. -/
theorem cut_outv (c : Dev nD) (t : Fin cfg0.N) (d1 : S1x256x256.Idx → EReal) (d3 : S3136x256.Idx → EReal) :
    win0_5.cut (grid0.coords t)
        (k0_pay3 (F := Ideal) (iblk m c 0 t) (win0_1.fill (grid0.coords t) d1 (iblk m c 1 t)) (win0_3.fill (grid0.coords t) d3 (iblk m c 3 t))
          (iblk m c 2 t))
      = (win0_5.blk t).view.read (Elt Ideal) (OUTV m c) := by
  obtain ⟨-, -, -, -, -, -, -, -, -, -, -, -, e50, e51, e52, -, -, -, -, -, -, -, x50, x51, x52⟩ := idx_facts t
  funext j
  have hj0 : (j 0).val < win0_5.xsize (grid0.coords t) (0 : Fin 3) := (j 0).isLt
  have hj1 : (j 1).val < win0_5.xsize (grid0.coords t) (1 : Fin 3) := (j 1).isLt
  have hj2 : (j 2).val < win0_5.xsize (grid0.coords t) (2 : Fin 3) := (j 2).isLt
  have hj2' : (j 2).val < 256 := lt_of_lt_of_le hj2 (win0_5.xsize_le (grid0.coords t) (2 : Fin 3))
  have hj24 : (j 2).val < win0_4.xsize (grid0.coords t) (2 : Fin 3) := by omega
  have hi0 : win0_5.index t (0 : Fin 3) * 1 + 1 * (j 0).val < 8 := (((cfg0.win 5).blk t).view.emb j 0).isLt
  have hi2 : win0_5.index t (2 : Fin 3) * 256 + 1 * (j 2).val < 3136 := (((cfg0.win 5).blk t).view.emb j 2).isLt
  let b : Fin 8 := ⟨win0_4.index t (0 : Fin 3), by omega⟩
  let v : Fin 21 := ⟨(j 1).val, by omega⟩
  let jc : Fin 256 := ⟨(j 2).val, hj2'⟩
  let mm : Fin 3136 := ⟨win0_4.index t (2 : Fin 3) * 256 + (j 2).val, by omega⟩
  have hx : win0_5.xinj (grid0.coords t) j = ix3 (0 : Fin 1) v jc := funext fun a => Fin.ext (by
    match a with
    | ⟨0, _⟩ => show (j 0).val = 0; omega
    | ⟨1, _⟩ => rfl
    | ⟨2, _⟩ => rfl)
  have hemb : ((cfg0.win 5).blk t).view.emb j = ix3 b v mm := funext fun a => Fin.ext (by
    match a with
    | ⟨0, _⟩ => show win0_5.index t (0 : Fin 3) * 1 + 1 * (j 0).val = win0_4.index t (0 : Fin 3); omega
    | ⟨1, _⟩ => show win0_5.index t (1 : Fin 3) * 21 + 1 * (j 1).val = (j 1).val; omega
    | ⟨2, _⟩ => show win0_5.index t (2 : Fin 3) * 256 + 1 * (j 2).val = win0_4.index t (2 : Fin 3) * 256 + (j 2).val; omega)
  have hs := blockScore_eq (iblk m c 0 t) (win0_1.fill (grid0.coords t) d1 (iblk m c 1 t)) (win0_3.fill (grid0.coords t) d3 (iblk m c 3 t))
    (PQ m c) (PK m c) (GAU m c) b jc mm (fun n' k => qblk_apply m c t b rfl n' k)
    (fun k => kblk_apply m c t d1 b rfl k jc hj24 mm rfl) (fun n' => gblk_apply m c t d3 n' jc hj24 mm rfl)
  show k0_pay3 (F := Ideal) _ _ _ _ (win0_5.xinj (grid0.coords t) j) = OUTV m c (((cfg0.win 5).blk t).view.emb j)
  rw [hx, hemb, OUTV_apply]
  refine (pay3_apply _ _ _ _ v jc).trans (Finset.sum_congr rfl fun n _ => ?_)
  rw [vblk_apply m c t b rfl v n, ATTN_apply, ← hs]

end Cert.KernelIdeal.Hand

end
-- ==== Proof.Oblig.lean ====
/-
  The body obligation at every grid point: the query and value blocks arrive as fetched (or kept from the point before),
  the key and mask blocks arrive just fetched with anything past the arrays' end, the result buffers hold anything; the
  body leaves the inputs as they were and the results at the weights and the aggregated values of those blocks, which
  on the columns inside the arrays are the blocks of the two whole-array functions.
-/
import proofs.«410430_j40656160424176_3_alg».proof.Proof.Data
import proofs.«410430_j40656160424176_3_alg».proof.Proof.Body
import proofs.«410430_j40656160424176_3_alg».proof.Proof.Cut
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The query and value windows' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The key and mask windows are fetched at every point: their buffers hold the block's part inside the array and
    anything past it. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]
theorem before0_3 (c : Dev nD) (t : Fin cfg0.N) (d) :
    (dats m 0 c).before 3 t d = win0_3.fill (grid0.coords t) d (iblk m c 3 t) := by
  rw [(dats m 0 c).before_fetched 3 t (fetch0_3 t)]
  unfold Dat.fetched Dat.blockOf iblk
  rw [A_eq]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the clipped windows' buffers stated on the part inside the arrays. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _ (iblk m c 0 t)
    (win0_1.fill (grid0.coords t) d1 (iblk m c 1 t)) (iblk m c 2 t) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists d1; rw [Window.cut_fill]; iexact H1
  isplitl [H2]; · iexact H2
  isplitl [H3]
  · iexists d3; rw [Window.cut_fill]; iexact H3
  isplitl [H4]
  · iexists _
    rw [Window.cut_fill, ← cut_attn m c t d1 d3, Window.fill_cut]
    iexact H4
  · iexists _
    rw [Window.cut_fill, ← cut_outv m c t d1 d3, Window.fill_cut]
    iexact H5

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Hand

end
-- ==== Proof.Final.lean ====
/-
  What the two result arrays hold after the run. Point t = 13·b + j writes back columns 256·j … of batch b, cut at the
  array's last column; every (b, n, k) lies in the block of the point 13·b + k / 256, and every block written back is
  that block of one whole-array function, so the arrays end holding the attention weights and the aggregated values.
  The line after the region lays the aggregated values out as 56 × 56 images.
-/
import proofs.«410430_j40656160424176_3_alg».proof.Proof.Data
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The weights' window: blocks [1, 3136, 256] of the [8, 3136, 3136] array -/

/-- The block of point t starts at batch t / 13, row 0, column 256 · (t mod 13); it holds one batch, all 3136 rows, and
    256 columns, or the 64 that are left before column 3136 when t mod 13 = 12. Decided over the 104 points. -/
theorem block_attn : ∀ t : Fin cfg0.N,
    win0_4.index t 0 = t.val / 13 ∧ win0_4.index t 1 = 0 ∧ win0_4.index t 2 = t.val % 13
    ∧ win0_4.xsize (grid0.coords t) 0 = 1 ∧ win0_4.xsize (grid0.coords t) 1 = 3136
    ∧ win0_4.xsize (grid0.coords t) 2 = min 256 (3136 - 256 * (t.val % 13)) :=
  (by decide +kernel : ∀ t : Fin grid0.N, _)

/-- What point t writes back is its block of the weights: the staging buffer holds that block filled out past the
    array's end, and the write-back moves the part inside the array only. -/
theorem flushed_attn (c : Dev nD) (t : Fin cfg0.N) :
    (dats m 0 c).flushed 4 t = ((cfg0.win 4).blk t).view.read (Elt Ideal) (ATTN m c) := by
  show (cfg0.win 4).cut (grid0.coords t) ((dats m 0 c).after 4 t) = _
  rw [after0_4]
  exact win0_4.cut_fill _ _ _

/-- Index (b, n, k) lies in the block of the point 13 · b + k / 256: that point's batch is b, its rows are all rows, and
    its columns start at 256 · (k / 256) ≤ k and reach past k (k mod 256 < 256, and k < 3136 on the last block). -/
theorem cover_attn (i : Cert.Attn.Sa.Idx) :
    ∃ t : Fin cfg0.N, (cfg0.win 4).flush t = true ∧ i ∈ ((cfg0.win 4).blk t).view.set := by
  have h0 : (i 0 : Nat) < 8 := (i 0).isLt
  have h1 : (i 1 : Nat) < 3136 := (i 1).isLt
  have h2 : (i 2 : Nat) < 3136 := (i 2).isLt
  have hq : (i 2 : Nat) / 256 < 13 := by omega
  have hN : 13 * (i 0 : Nat) + (i 2 : Nat) / 256 < cfg0.N := lt_of_lt_of_eq (by omega : _ < 104) N_0.symm
  refine ⟨⟨13 * (i 0 : Nat) + (i 2 : Nat) / 256, hN⟩, flush0_4 _, ?_⟩
  show i ∈ ((View.whole main_v23_0).slice (win0_4.rect ⟨13 * (i 0 : Nat) + (i 2 : Nat) / 256, hN⟩)).set
  rw [View.set_slice_whole, Rect.mem_set_unit]
  obtain ⟨e0, e1, e2, x0, x1, x2⟩ := block_attn ⟨13 * (i 0 : Nat) + (i 2 : Nat) / 256, hN⟩
  have d0 : (13 * (i 0 : Nat) + (i 2 : Nat) / 256) / 13 = (i 0 : Nat) := by omega
  have d2 : (13 * (i 0 : Nat) + (i 2 : Nat) / 256) % 13 = (i 2 : Nat) / 256 := by omega
  intro a
  match a with
  | ⟨0, _⟩ =>
    show win0_4.index _ 0 * 1 ≤ (i 0 : Nat) ∧ (i 0 : Nat) < win0_4.index _ 0 * 1 + win0_4.xsize (grid0.coords _) 0
    rw [e0, x0]; dsimp only; omega
  | ⟨1, _⟩ =>
    show win0_4.index _ 1 * 3136 ≤ (i 1 : Nat) ∧ (i 1 : Nat) < win0_4.index _ 1 * 3136 + win0_4.xsize (grid0.coords _) 1
    rw [e1, x1]; omega
  | ⟨2, _⟩ =>
    show win0_4.index _ 2 * 256 ≤ (i 2 : Nat) ∧ (i 2 : Nat) < win0_4.index _ 2 * 256 + win0_4.xsize (grid0.coords _) 2
    rw [e2, x2]; dsimp only; omega

/-- The weights' array after the last write-back. -/
theorem arrAt_attn (c : Dev nD) : (dats m 0 c).arrAt 4 cfg0.N = ATTN m c :=
  (dats m 0 c).arrAt_eq_of_cover 4 (ATTN m c) (fun t _ => flushed_attn m c t) cover_attn

/-! ## The aggregated values' window: blocks [1, 21, 256] of the [8, 21, 3136] array -/

/-- The block of point t starts at batch t / 13, row 0, column 256 · (t mod 13); it holds one batch, all 21 rows, and 256
    columns, or the 64 left before column 3136 when t mod 13 = 12. Decided over the 104 points. -/
theorem block_outv : ∀ t : Fin cfg0.N,
    win0_5.index t 0 = t.val / 13 ∧ win0_5.index t 1 = 0 ∧ win0_5.index t 2 = t.val % 13
    ∧ win0_5.xsize (grid0.coords t) 0 = 1 ∧ win0_5.xsize (grid0.coords t) 1 = 21
    ∧ win0_5.xsize (grid0.coords t) 2 = min 256 (3136 - 256 * (t.val % 13)) :=
  (by decide +kernel : ∀ t : Fin grid0.N, _)

/-- What point t writes back is its block of the aggregated values. -/
theorem flushed_outv (c : Dev nD) (t : Fin cfg0.N) :
    (dats m 0 c).flushed 5 t = ((cfg0.win 5).blk t).view.read (Elt Ideal) (OUTV m c) := by
  show (cfg0.win 5).cut (grid0.coords t) ((dats m 0 c).after 5 t) = _
  rw [after0_5]
  exact win0_5.cut_fill _ _ _

/-- Index (b, v, k) lies in the block of the point 13 · b + k / 256. -/
theorem cover_outv (i : Cert.Attn.Sv.Idx) :
    ∃ t : Fin cfg0.N, (cfg0.win 5).flush t = true ∧ i ∈ ((cfg0.win 5).blk t).view.set := by
  have h0 : (i 0 : Nat) < 8 := (i 0).isLt
  have h1 : (i 1 : Nat) < 21 := (i 1).isLt
  have h2 : (i 2 : Nat) < 3136 := (i 2).isLt
  have hq : (i 2 : Nat) / 256 < 13 := by omega
  have hN : 13 * (i 0 : Nat) + (i 2 : Nat) / 256 < cfg0.N := lt_of_lt_of_eq (by omega : _ < 104) N_0.symm
  refine ⟨⟨13 * (i 0 : Nat) + (i 2 : Nat) / 256, hN⟩, flush0_5 _, ?_⟩
  show i ∈ ((View.whole main_v23_1).slice (win0_5.rect ⟨13 * (i 0 : Nat) + (i 2 : Nat) / 256, hN⟩)).set
  rw [View.set_slice_whole, Rect.mem_set_unit]
  obtain ⟨e0, e1, e2, x0, x1, x2⟩ := block_outv ⟨13 * (i 0 : Nat) + (i 2 : Nat) / 256, hN⟩
  have d0 : (13 * (i 0 : Nat) + (i 2 : Nat) / 256) / 13 = (i 0 : Nat) := by omega
  have d2 : (13 * (i 0 : Nat) + (i 2 : Nat) / 256) % 13 = (i 2 : Nat) / 256 := by omega
  intro a
  match a with
  | ⟨0, _⟩ =>
    show win0_5.index _ 0 * 1 ≤ (i 0 : Nat) ∧ (i 0 : Nat) < win0_5.index _ 0 * 1 + win0_5.xsize (grid0.coords _) 0
    rw [e0, x0]; dsimp only; omega
  | ⟨1, _⟩ =>
    show win0_5.index _ 1 * 21 ≤ (i 1 : Nat) ∧ (i 1 : Nat) < win0_5.index _ 1 * 21 + win0_5.xsize (grid0.coords _) 1
    rw [e1, x1]; omega
  | ⟨2, _⟩ =>
    show win0_5.index _ 2 * 256 ≤ (i 2 : Nat) ∧ (i 2 : Nat) < win0_5.index _ 2 * 256 + win0_5.xsize (grid0.coords _) 2
    rw [e2, x2]; dsimp only; omega

/-- The aggregated values' array after the last write-back. -/
theorem arrAt_outv (c : Dev nD) : (dats m 0 c).arrAt 5 cfg0.N = OUTV m c :=
  (dats m 0 c).arrAt_eq_of_cover 5 (OUTV m c) (fun t _ => flushed_outv m c t) cover_outv

/-! ## The line after the region -/

/-- The reshape after the region, applied to the aggregated values: the reshape reads the aggregated values' array as
    the region left it, and position (b, v, h, w) of the [8, 21, 56, 56] result has the row-major position of
    (b, v, 56 · h + w) in the [8, 21, 3136] operand. -/
theorem tail_out (c : Dev nD) :
    Pipeline.afterTail₀ cfgs (dats m) 0 (V0 m) [hostOps1] c main_v24 = Cert.Attn.asImages (OUTV m c) := by
  unfold Pipeline.afterTail₀
  show StableHlo.after hostOps1 _ (Proc.devRef .tc main_v24) = _
  after_results
  have e : Pipeline.withArrays (cfgs 0).spec c (V0 m c) (fun w => (dats m 0 c).arrAt w (cfgs 0).N)
      (Proc.devRef .tc main_v23_1) = OUTV m c :=
    (Pipeline.withArrays_arr spec0 launch0.win.arr_inj c _ _ 5).trans (arrAt_outv m c)
  rw [e]
  funext i
  show shapeCast (⟨4, ![8, 21, 56, 56]⟩ : Shape) (OUTV m c) shapeCasts_S8x21x3136_S8x21x56x56 i
    = OUTV m c (Cert.Attn.unflat i)
  refine shapeCast_apply (OUTV m c) shapeCasts_S8x21x3136_S8x21x56x56 i (Cert.Attn.unflat i) ?_
  rw [Shape.rowMajor_val_four, Shape.rowMajor_val_three]
  show ((i 0).val * 21 + (i 1).val) * 3136 + ((i 2).val * 56 + (i 3).val)
      = (((i 0).val * 21 + (i 1).val) * 56 + (i 2).val) * 56 + (i 3).val
  omega

end Cert.KernelIdeal.Hand

end
-- ==== Proof.Run.lean ====
/-
  The idealized kernel's run: every weakly fair execution of @main ends with the weights' array at the attention
  weights, the result at the aggregated values laid out as images, and the arguments as launched.
-/
import proofs.«410430_j40656160424176_3_alg».proof.Proof.Oblig
import proofs.«410430_j40656160424176_3_alg».proof.Proof.Final
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable (m : (ℓ : Loc nD τ sig) → Buf (Elt Ideal) ℓ) (ρ : Dev nD → PrngReg)

set_option backward.isDefEq.respectTransparency.types false in
/-- The frame run around the region, with the line after it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with every result named. -/
theorem run_named : θ_run defs (onTc (τ := τ) (main (F := Ideal))) ⟨m, fun _ => 0, ρ⟩ (fun r => ∀ c : Dev nD,
      r.2.mem ((c.tc : Thread nD τ).loc main_v24) = Cert.Attn.asImages (OUTV m c)
      ∧ r.2.mem ((c.tc : Thread nD τ).loc main_v23_0) = ATTN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v24 (Pipeline.mem_restRefs_of main_v24 (by decide) (by decide))).trans (tail_out m c),
      ((h c).1 4).trans (arrAt_attn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Hand

end
-- ==== Proof.HostPre.lean ====
/-
  The arrays the region finds, as the reference's own stages of the argument arrays: the host lines before the region
  compute the reference's normalized queries (transposed after the division, where the reference transposes before it),
  its normalized keys and its reshaped values; a change of float format is the identity on the extended reals.
-/
import proofs.«410430_j40656160424176_3_alg».proof.Proof.Data
import proofs.«410430_j40656160424176_3_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

section Queries

/-- The kernel's divisor at (b, k, n): the norm of channel k of batch b, over the positions, bounded below, whatever n. -/
theorem divisorK (y : S8x256x3136.Idx → EReal) (s0 e0 : BitVec 32)
    (hr : S8x256x3136.ReducesTo [2] S8x256) (hZ : 0 < S_.numel)
    (hb1 : S8x256.BroadcastsInDim S8x256x1 (![0, 1] : Fin 2 → Fin 3)) (hb2 : S_.BroadcastsInDim S8x256x1 (![] : Fin 0 → Fin 3))
    (hb3 : S8x256x1.BroadcastsInDim S8x256x3136 (![0, 1, 2] : Fin 3 → Fin 3)) (b : Fin 8) (k : Fin 256) (n : Fin 3136) :
    (broadcastInDim S8x256x3136 ![0, 1, 2] hb3
      (maximumf (F := Ideal) (φ := .f32)
        (Host.sqrt (broadcastInDim S8x256x1 ![0, 1] hb1 (Host.reduceAdd (mulf (F := Ideal) (φ := .f32) y y) (constant S_ .f32 s0) hr hZ)))
        (broadcastInDim S8x256x1 ![] hb2 (constant S_ .f32 e0)))) (ix3 b k n)
      = FloatOps.maximumf (F := Ideal) (φ := .f32)
          (FloatOps.hostUnary .sqrt (Ideal.ofBits .f32 s0 + ∑ n' : Fin 3136, y (ix3 b k n') * y (ix3 b k n')))
          (Ideal.ofBits .f32 e0) := by
  rw [broadcastInDim_apply _ hb3 _ (ix3 b k n) (ix3 b k (0 : Fin 1)) (fun a => match a with
    | ⟨0, _⟩ => by show b.val = if (8 : Nat) = 1 then 0 else b.val; rw [if_neg (by decide)]
    | ⟨1, _⟩ => by show k.val = if (256 : Nat) = 1 then 0 else k.val; rw [if_neg (by decide)]
    | ⟨2, _⟩ => by show 0 = if (1 : Nat) = 1 then 0 else n.val; rw [if_pos rfl])]
  show FloatOps.maximumf (F := Ideal) (φ := .f32)
      (FloatOps.hostUnary .sqrt (broadcastInDim S8x256x1 ![0, 1] hb1
        (Host.reduceAdd (mulf (F := Ideal) (φ := .f32) y y) (constant S_ .f32 s0) hr hZ) (ix3 b k (0 : Fin 1))))
      (broadcastInDim S8x256x1 ![] hb2 (constant (F := Ideal) S_ .f32 e0) (ix3 b k (0 : Fin 1))) = _
  rw [broadcastInDim_apply _ hb1 _ (ix3 b k (0 : Fin 1)) (ix2 b k) (fun a => match a with
    | ⟨0, _⟩ => by show b.val = if (8 : Nat) = 1 then 0 else b.val; rw [if_neg (by decide)]
    | ⟨1, _⟩ => by show k.val = if (256 : Nat) = 1 then 0 else k.val; rw [if_neg (by decide)]),
    broadcastInDim_apply _ hb2 _ (ix3 b k (0 : Fin 1)) (fun a => a.elim0) (fun a => a.elim0)]
  show FloatOps.maximumf (F := Ideal) (φ := .f32)
      (FloatOps.hostUnary .sqrt (Ideal.hostReduceAdd hr (mulf (F := Ideal) (φ := .f32) y y) (Ideal.ofBits .f32 s0) (ix2 b k)))
      (Ideal.ofBits .f32 e0) = _
  rw [Ideal.hostReduceAdd_single hr (by decide)]
  refine congrArg (fun s => FloatOps.maximumf (F := Ideal) (φ := .f32) (FloatOps.hostUnary .sqrt (Ideal.ofBits .f32 s0 + s)) (Ideal.ofBits .f32 e0))
    (Finset.sum_congr rfl fun n' _ => ?_)
  exact (congrArg (mulf (F := Ideal) (φ := .f32) y y) (show _ = ix3 b k n' from
    funext fun a => Fin.ext (by match a with | ⟨0, _⟩ => rfl | ⟨1, _⟩ => rfl | ⟨2, _⟩ => rfl))).trans rfl

/-- The reference's divisor at (b, n, k): the same norm, summed over the middle axis of the position-major layout. -/
theorem divisorR (z : S8x3136x256.Idx → EReal) (s0 e0 : BitVec 32)
    (hr : S8x3136x256.ReducesTo [1] S8x256) (hZ : 0 < S_.numel)
    (hb1 : S8x256.BroadcastsInDim Cert.ReferenceIdeal.S8x1x256 (![0, 2] : Fin 2 → Fin 3))
    (hb2 : S_.BroadcastsInDim Cert.ReferenceIdeal.S8x1x256 (![] : Fin 0 → Fin 3))
    (hb3 : Cert.ReferenceIdeal.S8x1x256.BroadcastsInDim S8x3136x256 (![0, 1, 2] : Fin 3 → Fin 3)) (b : Fin 8) (n : Fin 3136) (k : Fin 256) :
    (broadcastInDim S8x3136x256 ![0, 1, 2] hb3
      (maximumf (F := Ideal) (φ := .f32)
        (Host.sqrt (broadcastInDim Cert.ReferenceIdeal.S8x1x256 ![0, 2] hb1 (Host.reduceAdd (mulf (F := Ideal) (φ := .f32) z z) (constant S_ .f32 s0) hr hZ)))
        (broadcastInDim Cert.ReferenceIdeal.S8x1x256 ![] hb2 (constant S_ .f32 e0)))) (ix3 b n k)
      = FloatOps.maximumf (F := Ideal) (φ := .f32)
          (FloatOps.hostUnary .sqrt (Ideal.ofBits .f32 s0 + ∑ n' : Fin 3136, z (ix3 b n' k) * z (ix3 b n' k)))
          (Ideal.ofBits .f32 e0) := by
  rw [broadcastInDim_apply _ hb3 _ (ix3 b n k) (ix3 b (0 : Fin 1) k) (fun a => match a with
    | ⟨0, _⟩ => by show b.val = if (8 : Nat) = 1 then 0 else b.val; rw [if_neg (by decide)]
    | ⟨1, _⟩ => by show 0 = if (1 : Nat) = 1 then 0 else n.val; rw [if_pos rfl]
    | ⟨2, _⟩ => by show k.val = if (256 : Nat) = 1 then 0 else k.val; rw [if_neg (by decide)])]
  show FloatOps.maximumf (F := Ideal) (φ := .f32)
      (FloatOps.hostUnary .sqrt (broadcastInDim Cert.ReferenceIdeal.S8x1x256 ![0, 2] hb1
        (Host.reduceAdd (mulf (F := Ideal) (φ := .f32) z z) (constant S_ .f32 s0) hr hZ) (ix3 b (0 : Fin 1) k)))
      (broadcastInDim Cert.ReferenceIdeal.S8x1x256 ![] hb2 (constant (F := Ideal) S_ .f32 e0) (ix3 b (0 : Fin 1) k)) = _
  rw [broadcastInDim_apply _ hb1 _ (ix3 b (0 : Fin 1) k) (ix2 b k) (fun a => match a with
    | ⟨0, _⟩ => by show b.val = if (8 : Nat) = 1 then 0 else b.val; rw [if_neg (by decide)]
    | ⟨1, _⟩ => by show k.val = if (256 : Nat) = 1 then 0 else k.val; rw [if_neg (by decide)]),
    broadcastInDim_apply _ hb2 _ (ix3 b (0 : Fin 1) k) (fun a => a.elim0) (fun a => a.elim0)]
  show FloatOps.maximumf (F := Ideal) (φ := .f32)
      (FloatOps.hostUnary .sqrt (Ideal.hostReduceAdd hr (mulf (F := Ideal) (φ := .f32) z z) (Ideal.ofBits .f32 s0) (ix2 b k)))
      (Ideal.ofBits .f32 e0) = _
  rw [Ideal.hostReduceAdd_single hr (by decide)]
  refine congrArg (fun s => FloatOps.maximumf (F := Ideal) (φ := .f32) (FloatOps.hostUnary .sqrt (Ideal.ofBits .f32 s0 + s)) (Ideal.ofBits .f32 e0))
    (Finset.sum_congr rfl fun n' _ => ?_)
  exact (congrArg (mulf (F := Ideal) (φ := .f32) z z) (show _ = ix3 b n' k from
    funext fun a => Fin.ext (by match a with | ⟨0, _⟩ => rfl | ⟨1, _⟩ => rfl | ⟨2, _⟩ => rfl))).trans rfl

/-- Dividing by the channel norms and then exchanging the last two axes is exchanging them first and dividing by the
    norms taken along the middle axis: both are y[b, k, n] over the same sum of squares of channel k of batch b. -/
theorem queries_eq (y : S8x256x3136.Idx → EReal) (s0 e0 : BitVec 32)
    (hr : S8x256x3136.ReducesTo [2] S8x256) (hZ : 0 < S_.numel)
    (hb1 : S8x256.BroadcastsInDim S8x256x1 (![0, 1] : Fin 2 → Fin 3)) (hb2 : S_.BroadcastsInDim S8x256x1 (![] : Fin 0 → Fin 3))
    (hb3 : S8x256x1.BroadcastsInDim S8x256x3136 (![0, 1, 2] : Fin 3 → Fin 3))
    (hbits : FTy.bits .bf16 < FTy.bits .f32) (htr : S8x256x3136.Transposes [0, 2, 1] S8x3136x256)
    (hr' : S8x3136x256.ReducesTo [1] S8x256)
    (hb1' : S8x256.BroadcastsInDim Cert.ReferenceIdeal.S8x1x256 (![0, 2] : Fin 2 → Fin 3))
    (hb2' : S_.BroadcastsInDim Cert.ReferenceIdeal.S8x1x256 (![] : Fin 0 → Fin 3))
    (hb3' : Cert.ReferenceIdeal.S8x1x256.BroadcastsInDim S8x3136x256 (![0, 1, 2] : Fin 3 → Fin 3)) :
    transpose S8x3136x256 [0, 2, 1]
      (truncf (F := Ideal) .bf16
        (Host.divf y
          (broadcastInDim S8x256x3136 ![0, 1, 2] hb3
            (maximumf (F := Ideal) (φ := .f32)
              (Host.sqrt (broadcastInDim S8x256x1 ![0, 1] hb1 (Host.reduceAdd (mulf (F := Ideal) (φ := .f32) y y) (constant S_ .f32 s0) hr hZ)))
              (broadcastInDim S8x256x1 ![] hb2 (constant S_ .f32 e0)))))
        hbits) htr
      = Host.divf (F := Ideal) (φ := .f32) (transpose S8x3136x256 [0, 2, 1] y htr)
          (broadcastInDim S8x3136x256 ![0, 1, 2] hb3'
            (maximumf (F := Ideal) (φ := .f32)
              (Host.sqrt (broadcastInDim Cert.ReferenceIdeal.S8x1x256 ![0, 2] hb1'
                (Host.reduceAdd (mulf (F := Ideal) (φ := .f32) (transpose S8x3136x256 [0, 2, 1] y htr) (transpose S8x3136x256 [0, 2, 1] y htr))
                  (constant S_ .f32 s0) hr' hZ)))
              (broadcastInDim Cert.ReferenceIdeal.S8x1x256 ![] hb2' (constant S_ .f32 e0)))) := by
  funext i
  obtain ⟨b, n, k, rfl⟩ : ∃ (b : Fin 8) (n : Fin 3136) (k : Fin 256), i = ix3 b n k := ⟨i 0, i 1, i 2, eq_ix3 i⟩
  have tr : ∀ (b : Fin 8) (n : Fin 3136) (k : Fin 256), transpose S8x3136x256 [0, 2, 1] y htr (ix3 b n k) = y (ix3 b k n) := fun b n k =>
    transpose_apply [0, 2, 1] y htr (ix3 b n k) (ix3 b k n) (fun a => match a with
      | ⟨0, _⟩ => rfl
      | ⟨1, _⟩ => rfl
      | ⟨2, _⟩ => rfl)
  rw [transpose_apply [0, 2, 1] _ htr (ix3 b n k) (ix3 b k n) (fun a => match a with
      | ⟨0, _⟩ => rfl
      | ⟨1, _⟩ => rfl
      | ⟨2, _⟩ => rfl)]
  show FloatOps.hostDivf (F := Ideal) (φ := .f32) (y (ix3 b k n)) (broadcastInDim _ _ _ _ (ix3 b k n))
    = FloatOps.hostDivf (F := Ideal) (φ := .f32) (transpose S8x3136x256 [0, 2, 1] y htr (ix3 b n k)) (broadcastInDim _ _ _ _ (ix3 b n k))
  rw [divisorK y s0 e0 hr hZ hb1 hb2 hb3 b k n, divisorR _ s0 e0 hr' hZ hb1' hb2' hb3' b n k, tr]
  simp only [tr]

end Queries

variable (m : (ℓ : Loc nD τ sig) → Buf (Elt Ideal) ℓ)

theorem PQ_eq (c : Dev nD) :
    PQ m c = Cert.ReferenceIdeal.Read.val_main_v9 (F := Ideal) (m ((c : Thread nD τ).loc main_arg0)) := by
  -- the host lines' composed term of the first argument, then the exchange of the division and the transposition
  show StableHlo.after hostOps0 (fun b => m (c, b)) (Proc.devRef .tc main_v10) = _
  after_results
  exact queries_eq _ _ _ _ _ _ _ _ _ _ _ _ _ _

theorem PK_eq (c : Dev nD) :
    PK m c = Cert.ReferenceIdeal.Read.val_main_v18 (F := Ideal) (m ((c : Thread nD τ).loc main_arg1)) := by
  -- the same operations on the second argument as the reference's, then a change of float format, the identity here
  show StableHlo.after hostOps0 (fun b => m (c, b)) (Proc.devRef .tc main_v20) = _
  after_results
  rfl

theorem PV_eq (c : Dev nD) :
    PV m c = Cert.ReferenceIdeal.Read.val_main_v36 (F := Ideal) (m ((c : Thread nD τ).loc main_arg2)) := by
  -- the reshape of the third argument, then a change of float format, which is the identity here
  show StableHlo.after hostOps0 (fun b => m (c, b)) (Proc.devRef .tc main_v22) = _
  after_results
  rfl

theorem GAU_eq (c : Dev nD) : GAU m c = m ((c : Thread nD τ).loc main_arg3) := V_main_arg3 m c

end Cert.KernelIdeal.Hand

end
-- ==== Proof.RefSide.lean ====
/-
  The reference's two results as the column softmax of the masked scores of its normalized queries and keys, in the
  quotient spelling, and the aggregated values laid out as images.
-/
import proofs.«410430_j40656160424176_3_alg».proof.Proof.Gen.ReferenceIdeal.Run
import proofs.«410430_j40656160424176_3_alg».proof.Proof.Gen.ReferenceIdeal.Read
import proofs.«410430_j40656160424176_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Hand

open Cert.ReferenceIdeal Cert.ReferenceIdeal.Gen Cert.ReferenceIdeal.Read
open Idealize.ShloMosaic Idealize.ShloMosaic.ValueIdx

/-- The word 0x3F800000 is the number one. -/
private theorem word_one : Ideal.ofBits .f32 0x3F800000#32 = 1 := by
  simp [Ideal.ofBits, Ideal.ieee, -EReal.coe_mul]; norm_num

/-- The word 0xFF800000 is −∞, the least extended real. -/
private theorem word_bot : Ideal.ofBits .f32 0xFF800000#32 = ⊥ := by
  simp [Ideal.ofBits, Ideal.ieee]

/-- A quotient by one is the numerator. -/
private theorem div_one' (x : EReal) : Ideal.div x 1 = x := by
  have h := Ideal.div_coe (y := 1) one_ne_zero x
  rw [EReal.coe_one] at h
  rw [h]; simp

section Stages

variable (x0 x1 : (⟨S8x256x56x56, .f32⟩ : BufTy).Contents (Elt Ideal)) (x3 : (⟨S3136x3136, .f32⟩ : BufTy).Contents (Elt Ideal))

/-- The column of masked scores of batch `b` and key position `m`, over the query position. -/
private abbrev col (b : Fin 8) (m : Fin 3136) : Fin 3136 → EReal :=
  Cert.Attn.score (val_main_v9 (F := Ideal) x0) (val_main_v18 (F := Ideal) x1) x3 b m

/-- The masked, unit-scaled product of queries and keys at (b, n, m) is the score. -/
private theorem v24_at (b : Fin 8) (n m : Fin 3136) :
    val_main_v24 (F := Ideal) x0 x1 x3 (ix3 b n m) = col x0 x1 x3 b m n := by
  rw [val_main_v24_apply, val_main_v21_apply, val_main_v20_apply, val_main_cst_3_apply, val_main_v19_apply,
    val_main_v23_apply, val_main_v22_apply]
  rw [Ideal.mulf_def, Ideal.hostDivf_def, Ideal.ofBits_def, word_one, div_one']
  have el : ∀ k : Fin 256, lidx_main_v19 (ix3 b n m) k = ix3 b n k := fun k =>
    funext fun a => Fin.ext (by match a with | ⟨0, _⟩ => rfl | ⟨1, _⟩ => rfl | ⟨2, _⟩ => rfl)
  have er : ∀ k : Fin 256, ridx_main_v19 (ix3 b n m) k = ix3 b k m := fun k =>
    funext fun a => Fin.ext (by match a with | ⟨0, _⟩ => rfl | ⟨1, _⟩ => rfl | ⟨2, _⟩ => rfl)
  have eg : idx_main_v22 (idx_main_v23 (ix3 b n m)) = ix2 n m :=
    funext fun a => Fin.ext (by match a with | ⟨0, _⟩ => rfl | ⟨1, _⟩ => rfl)
  rw [eg]
  show _ = (∑ c : Fin 256, _) * _
  refine congrArg (· * _) (Finset.sum_congr rfl fun k _ => ?_)
  rw [el, er]

end Stages

section Stages2

variable (x0 x1 : (⟨S8x256x56x56, .f32⟩ : BufTy).Contents (Elt Ideal)) (x3 : (⟨S3136x3136, .f32⟩ : BufTy).Contents (Elt Ideal))

/-- The key position's column with the query position `k` put back on the reduced axis is (b, k, m). -/
private theorem lift_at (h : S8x3136x3136.Reduces [1] S8x3136) (b : Fin 8) (m : Fin 3136) (k : Fin (S8x3136x3136.size 1)) :
    h.lift (ix2 b m) k = ix3 b (⟨k.val, k.isLt⟩ : Fin 3136) m := by
  funext c; apply Fin.ext
  match c with
  | ⟨0, _⟩ => rfl
  | ⟨1, _⟩ => rfl
  | ⟨2, _⟩ => rfl

/-- The reduce with a maximum body over the query positions is the column's largest entry. -/
private theorem v25_at (b : Fin 8) (m : Fin 3136) :
    val_main_v25 (F := Ideal) x0 x1 x3 (ix2 b m) = Cert.Attn.colMax (col x0 x1 x3 b m) := by
  have h : S8x3136x3136.Reduces [1] S8x3136 := by decide
  unfold val_main_v25
  rw [Host.reduce_eq_fold_single FloatOps.maximumf _ _ reducesTo_S8x3136x3136_S8x3136_d1 h h_S_]
  rw [val_main_cst_4_apply, Ideal.ofBits_def]
  unfold Cert.Attn.colMax
  have hf : (val_main_v24 (F := Ideal) x0 x1 x3 ∘ h.lift (ix2 b m)) = col x0 x1 x3 b m := funext fun k => by
    show val_main_v24 (F := Ideal) x0 x1 x3 (h.lift (ix2 b m) k) = _
    rw [lift_at h b m k]
    exact v24_at x0 x1 x3 b _ m
  rw [hf]
  rfl

/-- The maximum with −∞ changes nothing. -/
private theorem v27_at (b : Fin 8) (m : Fin 3136) :
    val_main_v27 (F := Ideal) x0 x1 x3 (ix2 b m) = Cert.Attn.colMax (col x0 x1 x3 b m) := by
  rw [val_main_v27_apply, val_main_v26_apply, val_main_cst_5_apply, v25_at, Ideal.maximumf_def, Ideal.ofBits_def, word_bot]
  exact max_eq_right bot_le

/-- The exponential of the shifted score. -/
private theorem v31_at (b : Fin 8) (n m : Fin 3136) :
    val_main_v31 (F := Ideal) x0 x1 x3 (ix3 b n m) = Cert.Attn.shifted (col x0 x1 x3 b m) n := by
  rw [val_main_v31_apply, val_main_v30_apply, val_main_v29_apply, val_main_v28_apply, v24_at]
  have e : idx_main_v28 (idx_main_v29 (ix3 b n m)) = ix2 b m :=
    funext fun a => Fin.ext (by match a with | ⟨0, _⟩ => rfl | ⟨1, _⟩ => rfl)
  rw [e, v27_at, Ideal.hostUnary_exp_def, Ideal.subf_def]
  rfl

/-- The sum of the exponentials over the query positions is the column's total. -/
private theorem v32_at (b : Fin 8) (m : Fin 3136) :
    val_main_v32 (F := Ideal) x0 x1 x3 (ix2 b m) = Cert.Attn.total (col x0 x1 x3 b m) := by
  rw [val_main_v32_apply, val_main_cst_6_apply, Ideal.ofBits_def, Ideal.ofBits_zero_f32, zero_add]
  unfold Cert.Attn.total
  refine Finset.sum_congr rfl fun k _ => ?_
  have e : idx_main_v32 (ix2 b m) k = ix3 b k m :=
    funext fun a => Fin.ext (by match a with | ⟨0, _⟩ => rfl | ⟨1, _⟩ => rfl | ⟨2, _⟩ => rfl)
  rw [e, v31_at]

/-- The quotient of the exponential by the total is the softmax weight. -/
private theorem v35_at (b : Fin 8) (n m : Fin 3136) :
    val_main_v35 (F := Ideal) x0 x1 x3 (ix3 b n m) = Cert.Attn.weightR (col x0 x1 x3 b m) n := by
  rw [val_main_v35_apply, val_main_v34_apply, val_main_v33_apply, v31_at]
  have e : idx_main_v33 (idx_main_v34 (ix3 b n m)) = ix2 b m :=
    funext fun a => Fin.ext (by match a with | ⟨0, _⟩ => rfl | ⟨1, _⟩ => rfl)
  rw [e, v32_at, Ideal.hostDivf_def]
  rfl

end Stages2

/-- The reference's attention weights are the quotient-spelled softmax of its own normalized queries (`val_main_v9`),
    normalized keys (`val_main_v18`) and the mask. -/
theorem attn_eq (x0 x1 : (⟨S8x256x56x56, .f32⟩ : BufTy).Contents (Elt Ideal)) (x3 : (⟨S3136x3136, .f32⟩ : BufTy).Contents (Elt Ideal)) :
    (val_main_v35 (F := Ideal) x0 x1 x3 : Cert.Attn.Sa.Idx → EReal)
      = Cert.Attn.attnR (val_main_v9 (F := Ideal) x0) (val_main_v18 (F := Ideal) x1) x3 := by
  funext i
  have hi : i = ix3 (i 0) (i 1) (i 2) := eq_ix3 i
  rw [hi]
  exact v35_at x0 x1 x3 (i 0) (i 1) (i 2)

/-- The reference's output is the values (`val_main_v36`) aggregated with those weights, as images. -/
theorem out_eq (x0 x1 : (⟨S8x256x56x56, .f32⟩ : BufTy).Contents (Elt Ideal)) (x2 : (⟨S8x21x56x56, .f32⟩ : BufTy).Contents (Elt Ideal))
    (x3 : (⟨S3136x3136, .f32⟩ : BufTy).Contents (Elt Ideal)) :
    (val_main_v38 (F := Ideal) x0 x1 x2 x3 : (⟨4, ![8, 21, 56, 56]⟩ : Shape).Idx → EReal)
      = Cert.Attn.asImages (Cert.Attn.outv (val_main_v36 (F := Ideal) x2) (val_main_v35 (F := Ideal) x0 x1 x3)) := by
  funext i
  rw [val_main_v38_apply, val_main_v37_apply]
  unfold Cert.Attn.asImages Cert.Attn.outv
  have e : idx_main_v38 i = Cert.Attn.unflat i := by
    unfold Cert.Attn.unflat
    have h0 : (i 0).val < 8 := (i 0).isLt
    have h1 : (i 1).val < 21 := (i 1).isLt
    have h2 : (i 2).val < 56 := (i 2).isLt
    have h3 : (i 3).val < 56 := (i 3).isLt
    funext a; apply Fin.ext
    match a with
    | ⟨0, _⟩ => show ((((i 0).val * 21 + (i 1).val) * 56 + (i 2).val) * 56 + (i 3).val) / 65856 = (i 0).val; omega
    | ⟨1, _⟩ => show ((((i 0).val * 21 + (i 1).val) * 56 + (i 2).val) * 56 + (i 3).val) / 3136 % 21 = (i 1).val; omega
    | ⟨2, _⟩ => show ((((i 0).val * 21 + (i 1).val) * 56 + (i 2).val) * 56 + (i 3).val) % 3136 = (i 2).val * 56 + (i 3).val; omega
  rw [e]
  refine Finset.sum_congr rfl fun k _ => ?_
  have el : lidx_main_v37 (Cert.Attn.unflat i) k = ix3 (Cert.Attn.unflat i 0) (Cert.Attn.unflat i 1) k :=
    funext fun a => Fin.ext (by match a with | ⟨0, _⟩ => rfl | ⟨1, _⟩ => rfl | ⟨2, _⟩ => rfl)
  have er : ridx_main_v37 (Cert.Attn.unflat i) k = ix3 (Cert.Attn.unflat i 0) k (Cert.Attn.unflat i 2) :=
    funext fun a => Fin.ext (by match a with | ⟨0, _⟩ => rfl | ⟨1, _⟩ => rfl | ⟨2, _⟩ => rfl)
  rw [el, er]
  rfl

end Cert.ReferenceIdeal.Hand

end
-- ==== Proof.LibReal.lean ====
/-
  Real-valued arrays of extended reals, and the operations that keep them real-valued.

  An array of extended reals is called real-valued when every entry is the image of a real number
  (neither ⊤ nor ⊥). Sums, differences and products of reals are real; a finite sum of reals is
  real; a re-indexing of a real-valued array (broadcast, reshape, slice, gather) is real-valued,
  because each of its entries is an entry of the operand; a contraction, a scatter-add and a reduction
  of real-valued arrays are finite sums of reals; a quotient by a nonzero real and the inverse square
  root of a positive real are real. The last part gives the two positivity facts a batch normalisation
  over message-passing layers needs: a count plus one is at least one, and a mean of squares plus a
  positive offset is positive.
-/
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

/-! ### Real-valued arrays -/

/-- An array of extended reals is real-valued when every entry is the image of a real number. -/
def IsReal {ι : Type} (f : ι → EReal) : Prop := ∀ i, ∃ r : ℝ, f i = (r : EReal)

/-- The image of a finite sum of reals is the sum of the images. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- A difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of reals is real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

/-- A quotient by a nonzero real is real. -/
theorem real_div {x : EReal} (hx : ∃ r : ℝ, x = (r : EReal)) {n : ℝ} (hn : n ≠ 0) :
    ∃ r : ℝ, Ideal.div x (n : EReal) = (r : EReal) := by
  obtain ⟨a, rfl⟩ := hx
  exact ⟨a * (1 / n), by rw [Ideal.div_coe hn, EReal.coe_mul]⟩

/-- The inverse square root of a positive real is real. -/
theorem real_rsqrt {x : EReal} (hx : ∃ r : ℝ, 0 < r ∧ x = (r : EReal)) : ∃ r : ℝ, Ideal.rsqrt x = (r : EReal) := by
  obtain ⟨a, ha, rfl⟩ := hx
  exact ⟨(Real.sqrt a)⁻¹, by rw [Ideal.rsqrt_coe, if_neg (not_lt.2 ha.le), if_neg ha.ne']⟩

/-- A re-indexing of a real-valued array is real-valued: each entry is an entry of the operand. -/
theorem IsReal.comp {ι κ : Type} {f : ι → EReal} (hf : IsReal f) (g : κ → ι) : IsReal fun j => f (g j) :=
  fun j => hf (g j)

/-- An array all of whose entries are one real number is real-valued. -/
theorem isReal_const {ι : Type} (r : ℝ) : IsReal fun _ : ι => (r : EReal) := fun _ => ⟨r, rfl⟩

/-! ### The float constants zero and one -/

/-- The f32 pattern of +0.0 denotes 0. -/
theorem ofBits_zero : Ideal.ofBits .f32 0x00000000#32 = ((0 : ℝ) : EReal) := by
  simp [Ideal.ofBits, Ideal.ieee]

/-- The f32 pattern 0x3F800000 denotes 1. -/
theorem ofBits_one : Ideal.ofBits .f32 0x3F800000#32 = ((1 : ℝ) : EReal) := by
  simp [Ideal.ofBits, Ideal.ieee, -EReal.coe_mul]; norm_num

/-- A splat of a float constant whose pattern denotes a real number is real-valued. -/
theorem isReal_constant {s : Shape} {b : BitVec 32} {r : ℝ} (hb : Ideal.ofBits .f32 b = (r : EReal)) :
    IsReal (constant (F := Ideal) s .f32 b) := fun _ => ⟨r, hb⟩

/-! ### Pointwise operations -/

section Pointwise
variable {s : Shape} {φ : FTy} {x y : FVec Ideal s φ}

/-- The entrywise sum of real-valued arrays is real-valued. -/
theorem isReal_addf (hx : IsReal x) (hy : IsReal y) : IsReal (addf x y) := fun i => real_add (hx i) (hy i)

/-- The entrywise difference of real-valued arrays is real-valued. -/
theorem isReal_subf (hx : IsReal x) (hy : IsReal y) : IsReal (subf x y) := fun i => real_sub (hx i) (hy i)

/-- The entrywise product of real-valued arrays is real-valued. -/
theorem isReal_mulf (hx : IsReal x) (hy : IsReal y) : IsReal (mulf x y) := fun i => real_mul (hx i) (hy i)

/-- The host's entrywise quotient by a splat of a nonzero real is real-valued. -/
theorem isReal_hostDivf_const (hx : IsReal x) {n : ℝ} (hn : n ≠ 0) (hy : ∀ i, y i = (n : EReal)) :
    IsReal (Host.divf x y) := fun i => by
  show ∃ r : ℝ, Ideal.div (x i) (y i) = (r : EReal)
  rw [hy i]; exact real_div (hx i) hn

/-- The kernel's entrywise quotient by a splat of a nonzero real is real-valued. -/
theorem isReal_divf_const (hx : IsReal x) {n : ℝ} (hn : n ≠ 0) (hy : ∀ i, y i = (n : EReal)) :
    IsReal (divf x y) := fun i => by
  show ∃ r : ℝ, Ideal.div (x i) (y i) = (r : EReal)
  rw [hy i]; exact real_div (hx i) hn

/-- The host's entrywise inverse square root of an array of positive reals is real-valued. -/
theorem isReal_hostRsqrt (hx : ∀ i, ∃ r : ℝ, 0 < r ∧ x i = (r : EReal)) : IsReal (Host.rsqrt x) :=
  fun i => real_rsqrt (hx i)

/-- The kernel's entrywise inverse square root of an array of positive reals is real-valued. -/
theorem isReal_rsqrt (hx : ∀ i, ∃ r : ℝ, 0 < r ∧ x i = (r : EReal)) : IsReal (rsqrt x) :=
  fun i => real_rsqrt (hx i)

end Pointwise

/-! ### Re-indexings: each output entry is an input entry -/

section Reindex
variable {s t : Shape}

/-- A broadcast along named axes of a real-valued array is real-valued. -/
theorem isReal_broadcastInDim {x : s.Idx → EReal} (hx : IsReal x) (dims : Fin s.rank → Fin t.rank)
    (h : s.BroadcastsInDim t dims) : IsReal (broadcastInDim t dims h x) := fun _ => hx _

/-- A trailing-axes broadcast of a real-valued array is real-valued. -/
theorem isReal_broadcastTo {x : s.Idx → EReal} (hx : IsReal x) (h : s.Broadcasts t) :
    IsReal (broadcastTo t x h) := fun _ => hx _

/-- A reshape of a real-valued array is real-valued. -/
theorem isReal_shapeCast {x : s.Idx → EReal} (hx : IsReal x) (h : s.ShapeCasts t) :
    IsReal (shapeCast t x h) := fun _ => hx _

/-- A slice of a real-valued array is real-valued. -/
theorem isReal_extractStridedSlice {x : s.Idx → EReal} (hx : IsReal x) (off : Fin s.rank → Nat)
    (h : s.Slices off t) : IsReal (extractStridedSlice t off x h) := fun _ => hx _

/-- A gather from a real-valued array is real-valued, whatever the (clamped) start indices. -/
theorem isReal_gather {si : Shape} {w : Nat} {x : s.Idx → EReal} (hx : IsReal x) (d : GatherDims s si t)
    (idx : IVec si w) : IsReal (Host.gather d x idx) := fun _ => hx _

end Reindex

/-! ### Contractions, scatter-adds, reductions: finite sums of reals -/

/-- A contraction of real-valued operands onto a real-valued accumulator is real-valued. -/
theorem isReal_matmul {sl sr so : Shape} (d : DotDims sl sr so) {lhs : sl.Idx → EReal} {rhs : sr.Idx → EReal}
    {acc : so.Idx → EReal} (hl : IsReal lhs) (hr : IsReal rhs) (ha : IsReal acc) :
    IsReal (Ideal.matmul d lhs rhs acc) := fun j =>
  real_add (ha j) (real_sum _ _ fun k _ => real_mul (hl _) (hr _))

/-- The kernel's matrix product of real-valued operands onto a real-valued accumulator is real-valued. -/
theorem isReal_matmulOp {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_matmul d hl hr ha

/-- The host's dot product of real-valued operands is real-valued. -/
theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) :=
  isReal_matmul d hl hr fun _ => ⟨0, rfl⟩

/-- A scatter-add of real-valued updates into a real-valued operand is real-valued: each entry is the
    operand's plus a finite sum of updates. -/
theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := fun i =>
  real_add (hx i) (real_sum _ _ fun j _ => hu j)

/-- The host's scatter-add operation on real-valued arrays is real-valued. -/
theorem isReal_scatterAdd {s si su : Shape} {φ : FTy} (d : ScatterDims s si su) {w : Nat} {x : FVec Ideal s φ}
    (idx : IVec si w) {upd : FVec Ideal su φ} (hx : IsReal x) (hu : IsReal upd) :
    IsReal (Host.scatterAdd d x idx upd) :=
  isReal_hostScatterAdd d idx hx hu

/-- The host's sum reduction of a real-valued array from a real initial value is real-valued. -/
theorem isReal_hostReduceAdd {s : Shape} {axes : List (Fin s.rank)} {t : Shape} (h : s.ReducesTo axes t)
    {x : s.Idx → EReal} {init : EReal} (hx : IsReal x) (hi : ∃ r : ℝ, init = (r : EReal)) :
    IsReal (Ideal.hostReduceAdd h x init) := fun _ =>
  real_add hi (real_sum _ _ fun i _ => hx i)

/-- The kernel's sum reduction of a real-valued array is real-valued. -/
theorem isReal_reduceAdd {s : Shape} {axes : List (Fin s.rank)} {t : Shape} (h : s.Reduces axes t)
    {x : s.Idx → EReal} (hx : IsReal x) : IsReal (Ideal.reduceAdd h x) := fun _ =>
  real_sum _ _ fun i _ => hx i

/-! ### Two positivity facts -/

/-- A scatter-add of nonnegative reals into nonnegative reals is a nonnegative real at every entry
    (with zeros and ones: the number of updates that land there). -/
theorem hostScatterAdd_nonneg {s si su : Shape} (d : ScatterDims s si su) {w : Nat} {x : s.Idx → EReal}
    (idx : IVec si w) {upd : su.Idx → EReal} (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha0, ha⟩ := hx i
  obtain ⟨b, hb0, hb⟩ := nonneg_real_sum (Finset.univ.filter fun j => d.resultIdx? j idx = some i) upd fun j _ => hu j
  exact ⟨a + b, add_nonneg ha0 hb0, by unfold Ideal.hostScatterAdd; rw [ha, hb, EReal.coe_add]⟩

/-- A count — ones scatter-added into zeros — plus one is a real number at least one, so positive. -/
theorem count_add_one_pos {s si su : Shape} (d : ScatterDims s si su) {w : Nat} (idx : IVec si w) (i : s.Idx) :
    ∃ r : ℝ, 0 < r ∧
      Ideal.hostScatterAdd d (fun _ => ((0 : ℝ) : EReal)) idx (fun _ => ((1 : ℝ) : EReal)) i + ((1 : ℝ) : EReal)
        = (r : EReal) := by
  obtain ⟨a, ha0, ha⟩ := hostScatterAdd_nonneg d idx (x := fun _ => ((0 : ℝ) : EReal))
    (upd := fun _ => ((1 : ℝ) : EReal)) (fun _ => ⟨0, le_rfl, rfl⟩) (fun _ => ⟨1, zero_le_one, rfl⟩) i
  exact ⟨a + 1, by linarith, by rw [ha, EReal.coe_add]⟩

/-- The same over the host's operations as a program composes them: ones scatter-added into zeros, then a splat of
    one added entrywise, is a positive real at every entry, whatever the scatter indices. -/
theorem scatterAdd_ones_add_one_pos {s si su : Shape} (d : ScatterDims s si su) {w : Nat} (idx : IVec si w)
    (x one : FVec Ideal s .f32) (upd : FVec Ideal su .f32) (hx : ∀ i, x i = ((0 : ℝ) : EReal))
    (hu : ∀ j, upd j = ((1 : ℝ) : EReal)) (h1 : ∀ i, one i = ((1 : ℝ) : EReal)) (i : s.Idx) :
    ∃ r : ℝ, 0 < r ∧ addf (Host.scatterAdd d x idx upd) one i = (r : EReal) := by
  obtain ⟨a, ha0, ha⟩ := hostScatterAdd_nonneg d idx (x := x) (upd := upd) (fun i => ⟨0, le_rfl, hx i⟩)
    (fun j => ⟨1, zero_le_one, hu j⟩) i
  refine ⟨a + 1, by linarith, ?_⟩
  show Ideal.hostScatterAdd d x idx upd i + one i = _
  rw [ha, h1 i, EReal.coe_add]

/-- For real a_i, a real centre μ, a positive real N and a positive real ε, the mean of the squared
    deviations plus ε, ((Σ_i (a_i − μ)·(a_i − μ)) / N) + ε, is a positive real. -/
theorem meanSq_add_eps_pos {ι : Type} [Fintype ι] (a : ι → ℝ) (μ N ε : ℝ) (hN : 0 < N) (hε : 0 < ε) :
    ∃ r : ℝ, 0 < r ∧
      Ideal.div (∑ i, ((a i : EReal) - (μ : EReal)) * ((a i : EReal) - (μ : EReal))) (N : EReal) + (ε : EReal)
        = (r : EReal) := by
  refine ⟨(∑ i, (a i - μ) * (a i - μ)) * (1 / N) + ε, ?_, ?_⟩
  · have h1 : 0 ≤ ∑ i, (a i - μ) * (a i - μ) := Finset.sum_nonneg fun i _ => mul_self_nonneg _
    have h2 : 0 ≤ (∑ i, (a i - μ) * (a i - μ)) * (1 / N) := mul_nonneg h1 (by positivity)
    linarith
  · have hs : (∑ i, ((a i : EReal) - (μ : EReal)) * ((a i : EReal) - (μ : EReal)))
        = ((∑ i, (a i - μ) * (a i - μ) : ℝ) : EReal) := by
      rw [coe_sum]; exact Finset.sum_congr rfl fun i _ => by rw [EReal.coe_mul, EReal.coe_sub]
    rw [hs, Ideal.div_coe hN.ne', ← EReal.coe_mul, ← EReal.coe_add]

/-- The variance offset ε, the f32 pattern 0x3727C5AC (the float nearest 1e-5), denotes the positive real
    10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The value of ε is positive. -/
theorem eps_pos : (0 : ℝ) < (10995116 : ℝ) * (2 : ℝ) ^ (-40 : ℤ) := by positivity

end Cert.Lib

end
-- ==== Proof.Real.lean ====
/-
  Under the precondition (every entry of every argument a real number) every masked score of the reference's normalized
  queries and keys is a real number: a normalized entry is a real divided by a real that is at least the clamp's value,
  which is positive; a score is a finite sum of products of reals times a real.
-/
import proofs.«410430_j40656160424176_3_alg».proof.Proof.Gen.ReferenceIdeal.Read
import proofs.«410430_j40656160424176_3_alg».proof.Proof.Gen.Pre_finite_inputs
import proofs.«410430_j40656160424176_3_alg».proof.Proof.Spec
import proofs.«410430_j40656160424176_3_alg».proof.Proof.LibReal
import Idealize.ShloMosaic.Lib.ReduceAll
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.ValueIdx
open Cert.Lib

/-! ### From the precondition to real entries -/

/-- The word 0x7F800000 denotes +∞. -/
theorem ofBits_posInf : Ideal.ofBits .f32 0x7F800000#32 = (⊤ : EReal) := by
  simp [Ideal.ofBits, Ideal.ieee]

/-- An extended real whose absolute value is strictly below +∞ is a real number: the absolute value of either
    infinity is +∞. -/
theorem real_of_abs_lt_top (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The precondition makes every entry of the first, second and fourth argument a real number. -/
theorem inputs_real (x0 x1 : (⟨S8x256x56x56, .f32⟩ : BufTy).Contents (Elt Ideal)) (x2 : (⟨S8x21x56x56, .f32⟩ : BufTy).Contents (Elt Ideal))
    (x3 : (⟨S3136x3136, .f32⟩ : BufTy).Contents (Elt Ideal))
    (h : Cert.Pre_finite_inputs.fn (F := Ideal) x0 x1 x2 x3 = fun _ => 1#1) : IsReal x0 ∧ IsReal x1 ∧ IsReal x3 := by
  have h0 := congrFun h ValueIdx.ix0
  dsimp only [Cert.Pre_finite_inputs.fn, Cert.Pre_finite_inputs.fn_part1] at h0
  obtain ⟨h012, e3⟩ := IntOp.andi_eq_one.1 (show IntOp.andi _ _ = 1#1 from h0)
  obtain ⟨h01, _⟩ := IntOp.andi_eq_one.1 (show IntOp.andi _ _ = 1#1 from h012)
  obtain ⟨e0, e1⟩ := IntOp.andi_eq_one.1 (show IntOp.andi _ _ = 1#1 from h01)
  exact ⟨fun i => real_of_abs_lt_top (x0 i) (Host.reduce_andi_all _ _ _ _ _ e0 i),
    fun i => real_of_abs_lt_top (x1 i) (Host.reduce_andi_all _ _ _ _ _ e1 i),
    fun i => real_of_abs_lt_top (x3 i) (Host.reduce_andi_all _ _ _ _ _ e3 i)⟩

/-! ### Closure facts the normalization needs -/

/-- The square of a real is a nonnegative real. -/
theorem nonneg_mul_self {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

/-- The clamp word 0x2B8CBCCC (the float nearest 1e-12) denotes the positive real 9223372 · 2⁻⁶³. -/
theorem ofBits_clamp : Ideal.ofBits .f32 0x2B8CBCCC#32 = (((9223372 : ℝ) * (2 : ℝ) ^ (-63 : ℤ) : ℝ) : EReal) := by
  simp [Ideal.ofBits, Ideal.ieee, -EReal.coe_mul]

/-- The clamp's value is positive. -/
theorem clamp_pos : (0 : ℝ) < (9223372 : ℝ) * (2 : ℝ) ^ (-63 : ℤ) := by positivity

/-- The larger of the square root of a nonnegative real and a positive real is a positive real. -/
theorem pos_max_sqrt {x : EReal} (hx : ∃ r : ℝ, 0 ≤ r ∧ x = (r : EReal)) {e : ℝ} (he : 0 < e) :
    ∃ r : ℝ, 0 < r ∧ max (Ideal.sqrt x) (e : EReal) = (r : EReal) := by
  obtain ⟨a, ha, rfl⟩ := hx
  refine ⟨max (Real.sqrt a) e, lt_max_of_lt_right he, ?_⟩
  rw [Ideal.sqrt_coe, if_neg (not_lt.2 ha)]
  exact (EReal.coe_strictMono.monotone.map_max).symm

/-- A real divided by a positive real is a real. -/
theorem real_div_pos {x y : EReal} (hx : ∃ r : ℝ, x = (r : EReal)) (hy : ∃ r : ℝ, 0 < r ∧ y = (r : EReal)) :
    ∃ r : ℝ, Ideal.div x y = (r : EReal) := by
  obtain ⟨b, hb, rfl⟩ := hy
  exact real_div hx hb.ne'

/-- Zero plus a finite sum of squares of reals is a nonnegative real. -/
theorem nonneg_zero_add_sum_sq {ι : Type} [Fintype ι] (f : ι → EReal) (hf : ∀ k, ∃ r : ℝ, f k = (r : EReal)) :
    ∃ r : ℝ, 0 ≤ r ∧ Ideal.ofBits .f32 0x00000000#32 + ∑ k, f k * f k = (r : EReal) := by
  obtain ⟨t, ht0, ht⟩ := nonneg_real_sum Finset.univ (fun k => f k * f k) fun k _ => nonneg_mul_self (hf k)
  exact ⟨t, ht0, by rw [ht, ofBits_zero, ← EReal.coe_add, zero_add]⟩

/-! ### The normalized queries -/

section Queries
variable {x0 : (⟨S8x256x56x56, .f32⟩ : BufTy).Contents (Elt Ideal)}

/-- The reshaped and transposed queries are entries of the argument. -/
theorem v1_real (hx : IsReal x0) : IsReal (val_main_v1 (F := Ideal) x0) := fun i => by
  rw [val_main_v1_apply, val_main_v0_apply]; exact hx _

/-- The sum of squares over the positions is a nonnegative real. -/
theorem v3_nonneg (hx : IsReal x0) (i : S8x256.Idx) : ∃ r : ℝ, 0 ≤ r ∧ val_main_v3 (F := Ideal) x0 i = (r : EReal) := by
  rw [val_main_v3_apply]
  exact nonneg_zero_add_sum_sq (fun k => val_main_v1 (F := Ideal) x0 (idx_main_v3 i k)) fun k => v1_real hx _

/-- The clamped norm is a positive real. -/
theorem v7_pos (hx : IsReal x0) (i : S8x1x256.Idx) : ∃ r : ℝ, 0 < r ∧ val_main_v7 (F := Ideal) x0 i = (r : EReal) := by
  rw [val_main_v7_apply, val_main_v5_apply, val_main_v4_apply, val_main_v6_apply, val_main_cst_0_apply]
  show ∃ r : ℝ, 0 < r ∧ max (Ideal.sqrt (val_main_v3 (F := Ideal) x0 (idx_main_v4 i))) (Ideal.ofBits .f32 0x2B8CBCCC#32) = (r : EReal)
  rw [ofBits_clamp]
  exact pos_max_sqrt (v3_nonneg hx _) clamp_pos

/-- The normalized queries are real. -/
theorem v9_real (hx : IsReal x0) : IsReal (val_main_v9 (F := Ideal) x0) := fun i => by
  rw [val_main_v9_apply, val_main_v8_apply]
  exact real_div_pos (v1_real hx i) (v7_pos hx _)

end Queries

/-! ### The normalized keys -/

section Keys
variable {x1 : (⟨S8x256x56x56, .f32⟩ : BufTy).Contents (Elt Ideal)}

/-- The reshaped keys are entries of the argument. -/
theorem v10_real (hx : IsReal x1) : IsReal (val_main_v10 (F := Ideal) x1) := fun i => by
  rw [val_main_v10_apply]; exact hx _

/-- The sum of squares over the channels is a nonnegative real. -/
theorem v12_nonneg (hx : IsReal x1) (i : S8x3136.Idx) : ∃ r : ℝ, 0 ≤ r ∧ val_main_v12 (F := Ideal) x1 i = (r : EReal) := by
  rw [val_main_v12_apply]
  exact nonneg_zero_add_sum_sq (fun k => val_main_v10 (F := Ideal) x1 (idx_main_v12 i k)) fun k => v10_real hx _

/-- The clamped norm is a positive real. -/
theorem v16_pos (hx : IsReal x1) (i : S8x1x3136.Idx) : ∃ r : ℝ, 0 < r ∧ val_main_v16 (F := Ideal) x1 i = (r : EReal) := by
  rw [val_main_v16_apply, val_main_v14_apply, val_main_v13_apply, val_main_v15_apply, val_main_cst_2_apply]
  show ∃ r : ℝ, 0 < r ∧ max (Ideal.sqrt (val_main_v12 (F := Ideal) x1 (idx_main_v13 i))) (Ideal.ofBits .f32 0x2B8CBCCC#32) = (r : EReal)
  rw [ofBits_clamp]
  exact pos_max_sqrt (v12_nonneg hx _) clamp_pos

/-- The normalized keys are real. -/
theorem v18_real (hx : IsReal x1) : IsReal (val_main_v18 (F := Ideal) x1) := fun i => by
  rw [val_main_v18_apply, val_main_v17_apply]
  exact real_div_pos (v10_real hx i) (v16_pos hx _)

end Keys

/-! ### The scores -/

theorem score_real (x0 x1 : (⟨S8x256x56x56, .f32⟩ : BufTy).Contents (Elt Ideal)) (x2 : (⟨S8x21x56x56, .f32⟩ : BufTy).Contents (Elt Ideal))
    (x3 : (⟨S3136x3136, .f32⟩ : BufTy).Contents (Elt Ideal))
    (h : Cert.Pre_finite_inputs.fn (F := Ideal) x0 x1 x2 x3 = fun _ => 1#1) (b : Fin 8) (k : Fin 3136) (n : Fin 3136) :
    ∃ r : ℝ, Cert.Attn.score (val_main_v9 (F := Ideal) x0) (val_main_v18 (F := Ideal) x1) x3 b k n = (r : EReal) := by
  obtain ⟨h0, h1, h3⟩ := inputs_real x0 x1 x2 x3 h
  unfold Cert.Attn.score
  exact real_mul (real_sum _ _ fun c _ => real_mul (v9_real h0 _) (v18_real h1 _)) (h3 _)

end Cert.ReferenceIdeal.Hand

end
-- ==== Proof.SoftmaxLaw.lean ====
/-
  On real scores the two spellings of the softmax weight agree: every shifted score is real, every exponential a
  positive real, the total a positive real t, and x · (1 / t) = x / t for a nonzero real t.
-/
import proofs.«410430_j40656160424176_3_alg».proof.Proof.Spec
import proofs.«410430_j40656160424176_3_alg».proof.Proof.LibReal
import Mathlib.Data.EReal.Inv
import Mathlib.Data.Finset.Fold
import Mathlib.Algebra.BigOperators.Group.Finset.Basic
import Mathlib.Algebra.Order.BigOperators.Group.Finset
import Mathlib.Analysis.SpecialFunctions.Exp

noncomputable section

namespace Cert.Attn

open Idealize.ShloMosaic

/-- The word 0xFF800000 denotes −∞, the least extended real. -/
theorem ofBits_negInf : Ideal.ofBits .f32 0xFF800000#32 = (⊥ : EReal) := by
  simp [Ideal.ofBits, Ideal.ieee]

/-- The larger of two reals, taken among the extended reals, is a real. -/
theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The fold of max from −∞ over a nonempty finite family of reals is a real: −∞ is absorbed by the first entry met,
    and from then on the fold is the larger of two reals. -/
theorem real_fold_max {ι : Type} (t : Finset ι) (f : ι → EReal) (hf : ∀ i, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a t ha ih =>
    rw [Finset.fold_insert ha]
    rcases t.eq_empty_or_nonempty with h0 | h1
    · subst h0
      rw [Finset.fold_empty, max_eq_left bot_le]
      exact hf a
    · exact real_max (hf a) (ih h1)

/-- The largest entry of a column of reals is a real. -/
theorem colMax_real (s : Fin 3136 → EReal) (hs : ∀ n, ∃ r : ℝ, s n = (r : EReal)) :
    ∃ r : ℝ, colMax s = (r : EReal) := by
  unfold colMax
  rw [ofBits_negInf]
  exact real_fold_max _ s hs ⟨(0 : Fin 3136), Finset.mem_univ _⟩

/-- Every shifted exponential of a column of reals is a positive real. -/
theorem shifted_pos_real (s : Fin 3136 → EReal) (hs : ∀ n, ∃ r : ℝ, s n = (r : EReal)) (n : Fin 3136) :
    ∃ r : ℝ, 0 < r ∧ shifted s n = (r : EReal) := by
  obtain ⟨m, hm⟩ := colMax_real s hs
  obtain ⟨a, ha⟩ := hs n
  refine ⟨Real.exp (a - m), Real.exp_pos _, ?_⟩
  unfold shifted
  rw [hm, ha, ← EReal.coe_sub, Ideal.exp_coe]

/-- The total of a column of reals is a positive real: a sum of positive reals over a nonempty index set. -/
theorem total_pos_real (s : Fin 3136 → EReal) (hs : ∀ n, ∃ r : ℝ, s n = (r : EReal)) :
    ∃ r : ℝ, 0 < r ∧ total s = (r : EReal) := by
  choose e he0 he using shifted_pos_real s hs
  refine ⟨∑ n : Fin 3136, e n, Finset.sum_pos (fun n _ => he0 n) ⟨(0 : Fin 3136), Finset.mem_univ _⟩, ?_⟩
  unfold total
  rw [Cert.Lib.coe_sum]
  exact Finset.sum_congr rfl fun n _ => he n

/-- The two spellings agree on a column of real scores. -/
theorem weightK_eq_weightR (s : Fin 3136 → EReal) (hs : ∀ n, ∃ r : ℝ, s n = (r : EReal)) : weightK s = weightR s := by
  funext n
  obtain ⟨t, ht0, ht⟩ := total_pos_real s hs
  unfold weightK weightR
  rw [ht, Ideal.div_coe ht0.ne', Ideal.div_coe ht0.ne', Cert.Lib.ofBits_one, ← EReal.coe_mul, one_mul]

/-- So do the two attention arrays when every score is real. -/
theorem attn_eq_attnR (pq : Sq.Idx → EReal) (pk : Sk.Idx → EReal) (g : Sg.Idx → EReal)
    (h : ∀ b m n, ∃ r : ℝ, score pq pk g b m n = (r : EReal)) : attn pq pk g = attnR pq pk g :=
  funext fun i => congrFun (weightK_eq_weightR _ (h (i 0) (i 2))) (i 1)

end Cert.Attn

end
-- ==== Proof.lean ====
/-
  Softmax attention with a fixed multiplicative mask, tiled over the key axis, against its jnp reference, over the
  extended reals.

  Both programs normalize the queries along the position axis and the keys along the channel axis (each entry divided
  by the Euclidean length clamped below by a constant), form for every batch b the scores
      s[n, k] = (∑_c pq[b,n,c] · pk[b,c,k]) · g[n,k],
  take the softmax of every column k over the query position n and aggregate the values with it,
      out[b,v,k] = ∑_n pv[b,v,n] · attn[b,n,k].
  The kernel works on column blocks of 256 keys (the last block holds 64 columns of the array and 192 that nothing
  names); a column of the result depends on the key block and on the mask block through that column only, so the
  columns inside the arrays are the arrays' own. The kernel multiplies by the reciprocal of a column's total where the
  reference divides by the total: equal when the total is a nonzero real, which the precondition (every argument entry
  a real number) gives, every score then being real and every exponential positive.
-/
import proofs.«410430_j40656160424176_3_alg».proof.Defs
import proofs.«410430_j40656160424176_3_alg».proof.Proof.Gen.Kernel
import proofs.«410430_j40656160424176_3_alg».proof.Proof.Gen.KernelIdeal
import proofs.«410430_j40656160424176_3_alg».proof.Proof.Gen.ReferenceIdeal
import proofs.«410430_j40656160424176_3_alg».proof.Proof.Gen.Pre_finite_inputs
import proofs.«410430_j40656160424176_3_alg».proof.Proof.Gen.ReferenceIdeal.Run
import proofs.«410430_j40656160424176_3_alg».proof.Proof.Gen.ReferenceIdeal.Read
import proofs.«410430_j40656160424176_3_alg».proof.Proof.KFrame
import proofs.«410430_j40656160424176_3_alg».proof.Proof.Run
import proofs.«410430_j40656160424176_3_alg».proof.Proof.HostPre
import proofs.«410430_j40656160424176_3_alg».proof.Proof.RefSide
import proofs.«410430_j40656160424176_3_alg».proof.Proof.Real
import proofs.«410430_j40656160424176_3_alg».proof.Proof.SoftmaxLaw
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- So does the idealized kernel: its run with the results named, the results dropped. -/
theorem frame_ki : Cert.frame_KernelIdeal := fun m ρ _ =>
  (θ_run Cert.KernelIdeal.defs _ _).mono (fun _ h c => (h c).2.2) (Cert.KernelIdeal.Hand.run_named m ρ)

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's attention weights, of arguments that are the kernel's and satisfy the precondition, are the
    kernel's: the arrays the region finds are the reference's own normalized queries, keys and values, and on real
    scores the quotient by a column's total is the product with its reciprocal. -/
theorem attn_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Cert.KernelIdeal.Hand.ATTN m c := by
  rw [Cert.ReferenceIdeal.Hand.attn_eq,
    ← Cert.Attn.attn_eq_attnR _ _ _ (Cert.ReferenceIdeal.Hand.score_real _ _ _ _ (hpre c))]
  unfold Cert.KernelIdeal.Hand.ATTN
  rw [Cert.KernelIdeal.Hand.PQ_eq, Cert.KernelIdeal.Hand.PK_eq, Cert.KernelIdeal.Hand.GAU_eq]

/-- At the ideal reading the two programs, run from memories that agree on the arguments, end with equal results. -/
theorem algebraic : Cert.algebraic_KernelIdeal_ReferenceIdeal := by
  intro m ρ m' ρ' hpre hagree
  refine ⟨fun c => Cert.Attn.asImages (Cert.KernelIdeal.Hand.OUTV m c), fun c => Cert.KernelIdeal.Hand.ATTN m c,
    Cert.KernelIdeal.Hand.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, (hagree c).1, (hagree c).2.1, (hagree c).2.2.1, (hagree c).2.2.2,
      Cert.ReferenceIdeal.Hand.out_eq, attn_agree m hpre c]
    show _ = Cert.Attn.asImages (Cert.KernelIdeal.Hand.OUTV m c)
    unfold Cert.KernelIdeal.Hand.OUTV
    rw [Cert.KernelIdeal.Hand.PV_eq]
  · rw [Cert.ReferenceIdeal.Read.val_main_v35_eq, (hagree c).1, (hagree c).2.1, (hagree c).2.2.2]
    exact attn_agree m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
